-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16384x3 : Shape := ⟨3, ![1, 16384, 3]⟩
abbrev S_ : Shape := ⟨0, ![]⟩

class Facts : Prop where
  bcast_S_S1x16384x3 : S_.BroadcastsInDim S1x16384x3 (![] : Fin 0 → Fin S1x16384x3.rank)
  reducesTo_S1x16384x3_S_d0_1_2 : S1x16384x3.ReducesTo [0, 1, 2] S_
  h_S_ : 0 < S_.numel

variable [Facts]

def fn {F : FTy → Type} [FloatOps F] (main_arg0 : FVec F S1x16384x3 .f32) (main_arg1 : FVec F S1x16384x3 .f32) : IVec S_ 1 :=
  let main_v0 : FVec F S1x16384x3 .f32 := Host.absf main_arg0
  let main_cst : FVec F S_ .f32 := constant S_ .f32 0x7F800000#32
  let main_v1 : FVec F S1x16384x3 .f32 := broadcastInDim S1x16384x3 ![] bcast_S_S1x16384x3 main_cst
  let main_v2 : IVec S1x16384x3 1 := cmpf .olt main_v0 main_v1
  let main_c : IVec S_ 1 := constantI S_ 1 1#1
  let main_v3 : IVec S_ 1 := (fun x v => Host.reduce IntOp.andi x v reducesTo_S1x16384x3_S_d0_1_2 h_S_) main_v2 main_c
  let main_v4 : FVec F S1x16384x3 .f32 := Host.absf main_arg1
  let main_cst_0 : FVec F S_ .f32 := constant S_ .f32 0x7F800000#32
  let main_v5 : FVec F S1x16384x3 .f32 := broadcastInDim S1x16384x3 ![] bcast_S_S1x16384x3 main_cst_0
  let main_v6 : IVec S1x16384x3 1 := cmpf .olt main_v4 main_v5
  let main_c_1 : IVec S_ 1 := constantI S_ 1 1#1
  let main_v7 : IVec S_ 1 := (fun x v => Host.reduce IntOp.andi x v reducesTo_S1x16384x3_S_d0_1_2 h_S_) main_v6 main_c_1
  let main_v8 : IVec S_ 1 := andi main_v3 main_v7
  main_v8
-- ==== Kernel.lean ====
abbrev S1x16384x3 : Shape := ⟨3, ![1, 16384, 3]⟩
abbrev S16384x3 : Shape := ⟨2, ![16384, 3]⟩
abbrev S3x16384 : Shape := ⟨2, ![3, 16384]⟩
abbrev S16384x1 : Shape := ⟨2, ![16384, 1]⟩
abbrev S2x8x16384 : Shape := ⟨3, ![2, 8, 16384]⟩
abbrev S2048x3 : Shape := ⟨2, ![2048, 3]⟩
abbrev S3x1024 : Shape := ⟨2, ![3, 1024]⟩
abbrev S2048x1 : Shape := ⟨2, ![2048, 1]⟩
abbrev S1x8x16384 : Shape := ⟨3, ![1, 8, 16384]⟩
abbrev S8x16384 : Shape := ⟨2, ![8, 16384]⟩
abbrev S2048x1024 : Shape := ⟨2, ![2048, 1024]⟩
abbrev S1x1024 : Shape := ⟨2, ![1, 1024]⟩
abbrev S2048 : Shape := ⟨1, ![2048]⟩
abbrev S1024 : Shape := ⟨1, ![1024]⟩
abbrev S8x1024 : Shape := ⟨2, ![8, 1024]⟩
abbrev S16384 : Shape := ⟨1, ![16384]⟩
abbrev S2x1x16384 : Shape := ⟨3, ![2, 1, 16384]⟩
abbrev S2x16384 : Shape := ⟨2, ![2, 16384]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S1x16384x3, .f32⟩
  | .hbm, ⟨1, _⟩ => ⟨S1x16384x3, .f32⟩
  | .hbm, ⟨2, _⟩ => ⟨S16384x3, .f32⟩
  | .hbm, ⟨3, _⟩ => ⟨S16384x3, .f32⟩
  | .hbm, ⟨4, _⟩ => ⟨S3x16384, .f32⟩
  | .hbm, ⟨5, _⟩ => ⟨S16384x1, .f32⟩
  | .hbm, ⟨6, _⟩ => ⟨S2x8x16384, .f32⟩
  | .hbm, ⟨7, _⟩ => ⟨S16384, .f32⟩
  | .hbm, ⟨8, _⟩ => ⟨S2x1x16384, .f32⟩
  | .hbm, ⟨9, _⟩ => ⟨S2x16384, .f32⟩
  | .hbm, ⟨10, _⟩ => ⟨S_, .f32⟩
  | .hbm, ⟨11, _⟩ => ⟨S16384, .f32⟩
  | .local _ .vmem, ⟨0, _⟩ => ⟨S2048x3, .f32⟩
  | .local _ .vmem, ⟨1, _⟩ => ⟨S2048x3, .f32⟩
  | .local _ .vmem, ⟨2, _⟩ => ⟨S3x1024, .f32⟩
  | .local _ .vmem, ⟨3, _⟩ => ⟨S3x1024, .f32⟩
  | .local _ .vmem, ⟨4, _⟩ => ⟨S2048x1, .f32⟩
  | .local _ .vmem, ⟨5, _⟩ => ⟨S2048x1, .f32⟩
  | .local _ .vmem, ⟨6, _⟩ => ⟨S1x8x16384, .f32⟩
  | .local _ .vmem, ⟨7, _⟩ => ⟨S1x8x16384, .f32⟩
  | .local _ .vmem, ⟨8, _⟩ => ⟨S2048x1, .f32⟩
  | .local _ .vmem, ⟨9, _⟩ => ⟨S8x16384, .f32⟩
  | _, _ => ⟨S1x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c1024_i32 : BitVec 32 := 1024#32
  let v45 : BitVec 32 := Scalar.muli arg2 c1024_i32
  v45
def k0_off1 (i : grid0.Coords) : Fin 2 → Nat :=
  let c0_13 : Index := 0#32
  let arg2 : BitVec 32 := BitVec.ofNat 32 (i 2).val
  let c1024_i32 : BitVec 32 := 1024#32
  let v45 : BitVec 32 := Scalar.muli arg2 c1024_i32
  let v46 : BitVec 32 := v45
  let v47 : Index := Scalar.indexCast v46
  ![0, v47.toNat]
def k0_cond3 (i : grid0.Coords) : BitVec 1 :=
  let arg2 : BitVec 32 := BitVec.ofNat 32 (i 2).val
  let c15_i32 : BitVec 32 := 15#32
  let v54 : BitVec 1 := Scalar.cmpi .eq arg2 c15_i32
  let v55 : BitVec 32 := Scalar.extui v54
  let c0_i32_15 : BitVec 32 := 0#32
  let v56 : BitVec 1 := Scalar.cmpi .ne v55 c0_i32_15
  v56

def k0_cond4 (i : grid0.Coords) : BitVec 1 :=
  let arg1 : BitVec 32 := BitVec.ofNat 32 (i 1).val
  let c3_i32 : BitVec 32 := 3#32
  let v57 : BitVec 1 := Scalar.cmpi .eq arg1 c3_i32
  let arg2 : BitVec 32 := BitVec.ofNat 32 (i 2).val
  let c15_i32_16 : BitVec 32 := 15#32
  let v58 : BitVec 1 := Scalar.cmpi .eq arg2 c15_i32_16
  let v59 : BitVec 1 := Scalar.andi v57 v58
  let v60 : BitVec 32 := Scalar.extui v59
  let c0_i32_17 : BitVec 32 := 0#32
  let v61 : BitVec 1 := Scalar.cmpi .ne v60 c0_i32_17
  v61

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S1x16384x3_S16384x3 : S1x16384x3.ShapeCasts S16384x3
  transposes_S16384x3_S3x16384_1_0 : S16384x3.Transposes [1, 0] S3x16384
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  shapeCasts_S1x1024_S1x1024 : S1x1024.ShapeCasts S1x1024
  broadcasts_S1x1024_S8x1024 : S1x1024.Broadcasts S8x1024
  h_S8x1024 : 0 < S8x1024.numel
  shapeCasts_S8x1024_S8x1024 : S8x1024.ShapeCasts S8x1024
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S8x16384 : S1x8x16384.ShapeCasts S8x16384
  shapeCasts_S8x16384_S1x8x16384 : S8x16384.ShapeCasts S1x8x16384
  shapeCasts_S16384x1_S16384 : S16384x1.ShapeCasts S16384
  slices_S2x8x16384_S2x1x16384_0_0_0 : S2x8x16384.Slices ![0, 0, 0] S2x1x16384
  shapeCasts_S2x1x16384_S2x16384 : S2x1x16384.ShapeCasts S2x16384
  reducesTo_S2x16384_S16384_d0 : S2x16384.ReducesTo [0] S16384
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S8x1024.size a ≤ S8x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S16384x3.size a
  hwx0_0 : ∀ i : grid0.Coords, EltTy.bits .f32 = 32 ∨ (Rect.block (s := S16384x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x16384.size a
  hwx0_1 : ∀ i : grid0.Coords, EltTy.bits .f32 = 32 ∨ (Rect.block (s := S3x16384) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x16384.size a ≤ S2x8x16384.size a
  hwx0_3 : ∀ i : grid0.Coords, EltTy.bits .f32 = 32 ∨ (Rect.block (s := S2x8x16384) S1x8x16384.size (cc0_transform_3 i) (hinb0_3 i)).WholeWords (EltTy.packing .f32)

variable [Facts₀]

abbrev win0_0 : Pipeline.Window sig grid0 :=
  Pipeline.Window.ofSpec (Memref.whole main_v0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x8x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S1x16384x3 : Shape := ⟨3, ![1, 16384, 3]⟩
abbrev S_ : Shape := ⟨0, ![]⟩
abbrev S1x16384 : Shape := ⟨2, ![1, 16384]⟩
abbrev S1x16384x16384 : Shape := ⟨3, ![1, 16384, 16384]⟩
abbrev S1x16384x1 : Shape := ⟨3, ![1, 16384, 1]⟩
abbrev S1x1x16384 : Shape := ⟨3, ![1, 1, 16384]⟩
abbrev S16384 : Shape := ⟨1, ![16384]⟩

abbrev nBuf : Space → Nat
  | .hbm => 40
  | .vmem => 0
  | .smem => 0
  | _ => 0

abbrev bufTy : (tb : Table) → Fin (tcTables nBuf tb) → BufTy
  | .hbm, ⟨0, _⟩ => ⟨S1x16384x3, .f32⟩
  | .hbm, ⟨1, _⟩ => ⟨S1x16384x3, .f32⟩
  | .hbm, ⟨2, _⟩ => ⟨S1x16384x3, .f32⟩
  | .hbm, ⟨3, _⟩ => ⟨S_, .f32⟩
  | .hbm, ⟨4, _⟩ => ⟨S1x16384, .f32⟩
  | .hbm, ⟨5, _⟩ => ⟨S1x16384x3, .f32⟩
  | .hbm, ⟨6, _⟩ => ⟨S_, .f32⟩
  | .hbm, ⟨7, _⟩ => ⟨S1x16384, .f32⟩
  | .hbm, ⟨8, _⟩ => ⟨S1x16384x16384, .f32⟩
  | .hbm, ⟨9, _⟩ => ⟨S1x16384x1, .f32⟩
  | .hbm, ⟨10, _⟩ => ⟨S1x1x16384, .f32⟩
  | .hbm, ⟨11, _⟩ => ⟨S1x16384x16384, .f32⟩
  | .hbm, ⟨12, _⟩ => ⟨S1x16384x16384, .f32⟩
  | .hbm, ⟨13, _⟩ => ⟨S1x16384x16384, .f32⟩
  | .hbm, ⟨14, _⟩ => ⟨S_, .f32⟩
  | .hbm, ⟨15, _⟩ => ⟨S1x16384x16384, .f32⟩
  | .hbm, ⟨16, _⟩ => ⟨S1x16384x16384, .f32⟩
  | .hbm, ⟨17, _⟩ => ⟨S1x16384x16384, .f32⟩
  | .hbm, ⟨18, _⟩ => ⟨S_, .f32⟩
  | .hbm, ⟨19, _⟩ => ⟨S1x16384, .f32⟩
  | .hbm, ⟨20, _⟩ => ⟨S16384, .f32⟩
  | .hbm, ⟨21, _⟩ => ⟨S1x16384x3, .f32⟩
  | .hbm, ⟨22, _⟩ => ⟨S_, .f32⟩
  | .hbm, ⟨23, _⟩ => ⟨S1x16384, .f32⟩
  | .hbm, ⟨24, _⟩ => ⟨S1x16384x3, .f32⟩
  | .hbm, ⟨25, _⟩ => ⟨S_, .f32⟩
  | .hbm, ⟨26, _⟩ => ⟨S1x16384, .f32⟩
  | .hbm, ⟨27, _⟩ => ⟨S1x16384x16384, .f32⟩
  | .hbm, ⟨28, _⟩ => ⟨S1x16384x1, .f32⟩
  | .hbm, ⟨29, _⟩ => ⟨S1x1x16384, .f32⟩
  | .hbm, ⟨30, _⟩ => ⟨S1x16384x16384, .f32⟩
  | .hbm, ⟨31, _⟩ => ⟨S1x16384x16384, .f32⟩
  | .hbm, ⟨32, _⟩ => ⟨S1x16384x16384, .f32⟩
  | .hbm, ⟨33, _⟩ => ⟨S_, .f32⟩
  | .hbm, ⟨34, _⟩ => ⟨S1x16384x16384, .f32⟩
  | .hbm, ⟨35, _⟩ => ⟨S1x16384x16384, .f32⟩
  | .hbm, ⟨36, _⟩ => ⟨S1x16384x16384, .f32⟩
  | .hbm, ⟨37, _⟩ => ⟨S_, .f32⟩
  | .hbm, ⟨38, _⟩ => ⟨S1x16384, .f32⟩
  | .hbm, ⟨39, _⟩ => ⟨S16384, .f32⟩
  | _, _ => ⟨S1x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S1x16384x3_S1x16384_d2 : S1x16384x3.ReducesTo [2] S1x16384
  h_S_ : 0 < S_.numel
  bcast_S1x16384_S1x16384x1_0_1 : S1x16384.BroadcastsInDim S1x16384x1 (![0, 1] : Fin 2 → Fin S1x16384x1.rank)
  bcast_S1x16384_S1x1x16384_0_2 : S1x16384.BroadcastsInDim S1x1x16384 (![0, 2] : Fin 2 → Fin S1x1x16384.rank)
  bcast_S1x16384x1_S1x16384x16384_0_1_2 : S1x16384x1.BroadcastsInDim S1x16384x16384 (![0, 1, 2] : Fin 3 → Fin S1x16384x16384.rank)
  bcast_S1x1x16384_S1x16384x16384_0_1_2 : S1x1x16384.BroadcastsInDim S1x16384x16384 (![0, 1, 2] : Fin 3 → Fin S1x16384x16384.rank)
  bcast_S_S1x16384x16384 : S_.BroadcastsInDim S1x16384x16384 (![] : Fin 0 → Fin S1x16384x16384.rank)
  reducesTo_S1x16384x16384_S1x16384_d2 : S1x16384x16384.ReducesTo [2] S1x16384
  shapeCasts_S1x16384_S16384 : S1x16384.ShapeCasts S16384
  dot_S1x16384x3_S1x16384x3_S1x16384x16384_2_2_1_1_0_0_wf : DotDims.WF S1x16384x3 S1x16384x3 S1x16384x16384 [2] [2] [1] [1] [0] [0]

variable [Facts₀]

def dot_S1x16384x3_S1x16384x3_S1x16384x16384_2_2_1_1_0_0 : DotDims S1x16384x3 S1x16384x3 S1x16384x16384 where
  lhsContracting := [2]
  rhsContracting := [2]
  lhsNonContracting := [1]
  rhsNonContracting := [1]
  lhsBatch := [0]
  rhsBatch := [0]
  wf := dot_S1x16384x3_S1x16384x3_S1x16384x16384_2_2_1_1_0_0_wf

class Facts : Prop extends Facts₀ where

variable [Facts]
-- ==== Proof.Spec.lean ====
/-
  The mathematics both programs compute, stated once over the two clouds as extended-real arrays.

  A cloud is one batch of 16384 points with 3 coordinates.  `sqDist p q n m` is the squared Euclidean
  distance between point `n` of `p` and point `m` of `q`, accumulated coordinate by coordinate from zero:
  `((0 + d₀²) + d₁²) + d₂²` with `dₖ = p[n,k] - q[m,k]`.  The forward result at `n` is the infimum of
  `sqDist p q n m` over all `m`; the backward result at `m` is the infimum over all `n`.

  `sqDistExpanded` is the same distance in the expanded form `|p|² + |q|² - 2⟨p, q⟩`; on real (finite)
  coordinates the two agree (`(a - b)² = a² + b² - 2ab` in each coordinate), which is false at infinities:
  `∞ - ∞`.

  Also here: a fold of `min` from `⊤` over a finite index type is the infimum, and an infimum over a
  product of two ranges re-indexed as one range.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: one batch of 16384 points in 3 coordinates, as extended reals. -/
abbrev Cloud : Type := (⟨3, ![1, 16384, 3]⟩ : Shape).Idx → EReal

/-- Coordinate `k` of point `n`. -/
abbrev Cloud.coord (p : Cloud) (n : Fin 16384) (k : Fin 3) : EReal := p (ix3 (0 : Fin 1) n k)

/-- The squared distance between point `n` of `p` and point `m` of `q`, summed coordinate by coordinate from zero. -/
def sqDist (p q : Cloud) (n m : Fin 16384) : EReal :=
  0 + (p.coord n 0 - q.coord m 0) * (p.coord n 0 - q.coord m 0)
    + (p.coord n 1 - q.coord m 1) * (p.coord n 1 - q.coord m 1)
    + (p.coord n 2 - q.coord m 2) * (p.coord n 2 - q.coord m 2)

/-- The same distance expanded: `|p[n]|² + |q[m]|² - 2⟨p[n], q[m]⟩`, each sum taken from zero. -/
def sqDistExpanded (p q : Cloud) (n m : Fin 16384) : EReal :=
  ((0 + ∑ k : Fin 3, p.coord n k * p.coord n k) + (0 + ∑ k : Fin 3, q.coord m k * q.coord m k))
    - 2 * ∑ k : Fin 3, p.coord n k * q.coord m k

/-- Nearest-neighbour squared distance from point `n` of `p` into `q`. -/
def nearestFwd (p q : Cloud) (n : Fin 16384) : EReal := ⨅ m : Fin 16384, sqDist p q n m

/-- Nearest-neighbour squared distance from point `m` of `q` into `p`. -/
def nearestBwd (p q : Cloud) (m : Fin 16384) : EReal := ⨅ n : Fin 16384, sqDist p q n m

/-- Every coordinate of the cloud is a real number. -/
def Cloud.IsReal (p : Cloud) : Prop := ∀ i, ∃ r : ℝ, p i = (r : EReal)

/-- On real coordinates the expanded form is the distance: `(a - b)² = a² + b² - 2ab`, coordinate by coordinate. -/
theorem sqDistExpanded_eq {p q : Cloud} (hp : p.IsReal) (hq : q.IsReal) (n m : Fin 16384) :
    sqDistExpanded p q n m = sqDist p q n m := by
  obtain ⟨a0, h0⟩ := hp (ix3 0 n 0); obtain ⟨a1, h1⟩ := hp (ix3 0 n 1); obtain ⟨a2, h2⟩ := hp (ix3 0 n 2)
  obtain ⟨b0, g0⟩ := hq (ix3 0 m 0); obtain ⟨b1, g1⟩ := hq (ix3 0 m 1); obtain ⟨b2, g2⟩ := hq (ix3 0 m 2)
  unfold sqDistExpanded sqDist
  simp only [Cloud.coord, Fin.sum_univ_three, h0, h1, h2, g0, g1, g2]
  have two : (2 : EReal) = ((2 : ℝ) : EReal) := by norm_cast
  rw [two]
  simp only [← EReal.coe_mul, ← EReal.coe_add, ← EReal.coe_sub, ← EReal.coe_zero]
  congr 1
  ring

/-- On real coordinates the distance is symmetric in the two points. -/
theorem sqDist_symm {p q : Cloud} (hp : p.IsReal) (hq : q.IsReal) (n m : Fin 16384) :
    sqDist p q n m = sqDist q p m n := by
  obtain ⟨a0, h0⟩ := hp (ix3 0 n 0); obtain ⟨a1, h1⟩ := hp (ix3 0 n 1); obtain ⟨a2, h2⟩ := hp (ix3 0 n 2)
  obtain ⟨b0, g0⟩ := hq (ix3 0 m 0); obtain ⟨b1, g1⟩ := hq (ix3 0 m 1); obtain ⟨b2, g2⟩ := hq (ix3 0 m 2)
  unfold sqDist
  simp only [Cloud.coord, h0, h1, h2, g0, g1, g2]
  simp only [← EReal.coe_mul, ← EReal.coe_add, ← EReal.coe_sub, ← EReal.coe_zero]
  congr 1
  ring

/-- The pattern of `+∞` reads as the top extended real. -/
theorem ofBits_inf_f32 : Ideal.ofBits .f32 0x7F800000#32 = (⊤ : EReal) := by
  simp [Ideal.ofBits, Ideal.ieee]

/-- A fold of `min` from `⊤` over all of a finite index type is the infimum. -/
theorem fold_min_top_eq_iInf {ι : Type*} [Fintype ι] (f : ι → EReal) :
    (Finset.univ : Finset ι).fold min ⊤ f = ⨅ k, f k :=
  eq_of_forall_le_iff fun c => by
    rw [Finset.le_fold_min, le_iInf_iff]
    simp

end Cert.Chamfer

end
-- ==== Proof.LibMinLayout.lean ====
/-
  General lemmas, over the library only, for kernels that take minima and store into part of a buffer.

  * `multiReduction_minimumf_single`: at the ideal values a minimum reduction over ONE axis, read at a result index, is
    the fold of `min` from the accumulator's value over that axis's coordinates (the dual of the library's statement for
    maxima).
  * `broadcastTo_a1_ab_apply`, `shapeCast_a_a1_apply`: a column `[a, 1]` broadcast to `[a, b]`, and a vector `[a]` cast
    to a column `[a, 1]`, read at an index (the keepdims column forms).
  * `read_writes_cons_overlay`, `read_writes_single`, `read_writes_whole`: what a buffer reads after its newest store
    is what the earlier stores left with the store's rectangle replaced by its payload; one store over old contents; one
    store of the whole buffer.
-/
import Idealize.ShloMosaic.PureOps.Ideal.Laws
import Idealize.ShloMosaic.Lib.ValueIdx
import Idealize.ShloMosaic.Lib.Pipeline.Value
import Idealize.ShloMosaic.Lib.WritesUnit

noncomputable section

open Idealize.ShloMosaic Idealize.ShloMosaic.ValueIdx

namespace Cert.LibMinLayout

/-- A minimum reduction over one axis, from the accumulator's pattern, is the fold of `min` over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The newest store into a buffer leaves what the earlier stores left with its rectangle replaced by its payload. -/
theorem read_writes_cons_overlay {sig : RefSig} {κ : Kind} {sp : Space} {s : Shape} {e : EltTy} {Val : EltTy → Type}
    (v : View sig κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.writes_cons, View.read_slice_write_of_not_mem r _ _ _ (by rw [Rect.map_emb_univ]; exact hy),
      Rect.overlay_of_not_mem _ _ _ hy]

/-- One store into a buffer leaves the old contents with the store's rectangle replaced by its payload. -/
theorem read_writes_single {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w :=
  read_writes_cons_overlay v f r w []

/-- One store of a whole buffer leaves its payload, whatever the buffer held. -/
theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) :
    v.read Val (v.writes Val f [⟨Rect.unit off S.size inb, w⟩]) = w := by
  rw [View.read_writes_eq_canon _ _ _ (fun y => ⟨_, List.mem_singleton_self _, View.mem_set_unit_zero h inb y⟩),
    View.canon_unit_zero h]

end Cert.LibMinLayout

end
-- ==== Proof.Body.lean ====
/-
  What the kernel body computes at one grid point, read index by index over the extended reals.

  The body holds a block `x` of 2048 points (rows, 3 coordinates) and a block `y` of 1024 points stored transposed
  (3 coordinates, columns).  Its distance tile at (row `r`, column `l`) is `((0 + d₀²) + d₁²) + d₂²` with
  `dₖ = x[r,k] - y[k,l]` (`tileDist`).  The row accumulator takes the minimum of its old value and the tile's row minimum,
  the column accumulator the minimum of its old value and the tile's column minimum (the same in each of its 8 rows);
  a minimum reduction from the `+∞` pattern is an infimum.  The reset values are `⊤` everywhere.
-/
import proofs.«166123_j14620068675781_2_alg».proof.Proof.Gen.KernelIdeal.Skeleton
import proofs.«166123_j14620068675781_2_alg».proof.Proof.Spec
import proofs.«166123_j14620068675781_2_alg».proof.Proof.LibMinLayout
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.Chamfer.Body

open Cert.KernelIdeal Cert.KernelIdeal.Gen Cert.LibMinLayout

/-- The squared distance between row `r` of `x` and column `l` of `y`, summed coordinate by coordinate from zero. -/
def tileDist (x : Vec Ideal S2048x3 .f32) (y : Vec Ideal S3x1024 .f32) (r : Fin 2048) (l : Fin 1024) : EReal :=
  0 + (x (ix2 r 0) - y (ix2 0 l)) * (x (ix2 r 0) - y (ix2 0 l))
    + (x (ix2 r 1) - y (ix2 1 l)) * (x (ix2 r 1) - y (ix2 1 l))
    + (x (ix2 r 2) - y (ix2 2 l)) * (x (ix2 r 2) - y (ix2 2 l))

/-- The body's distance tile at (row, column). -/
theorem pay6_apply (x : Vec Ideal S2048x3 .f32) (y : Vec Ideal S3x1024 .f32) (r : Fin 2048) (l : Fin 1024) :
    k0_pay6 (F := Ideal) x y (ix2 r l) = tileDist x y r l := by
  unfold k0_pay6 tileDist
  simp only [addf_apply, mulf_apply, subf_apply, broadcast_apply, shapeCast_self]
  rw [broadcastTo_a1_ab_apply, broadcastTo_a1_ab_apply, broadcastTo_a1_ab_apply,
    broadcastTo_1b_ab_apply, broadcastTo_1b_ab_apply, broadcastTo_1b_ab_apply]
  rw [slice2_axis1_apply 0 x _ r 0 0 rfl, slice2_axis1_apply 1 x _ r 0 1 rfl, slice2_axis1_apply 2 x _ r 0 2 rfl,
    slice2_axis0_apply 0 y _ 0 l 0 rfl, slice2_axis0_apply 1 y _ 0 l 1 rfl, slice2_axis0_apply 2 y _ 0 l 2 rfl]
  rw [show (Scalar.ofBits .f32 0x00000000#32 : Ideal .f32) = 0 from Ideal.ofBits_zero_f32]

/-- The row accumulator's new value: the old one against the tile's row minimum. -/
theorem pay7_apply (x : Vec Ideal S2048x3 .f32) (y : Vec Ideal S3x1024 .f32) (acc : Vec Ideal S2048x1 .f32) (r : Fin 2048) (u : Fin 1) :
    k0_pay7 (F := Ideal) x y acc (ix2 r u) = min (acc (ix2 r u)) (⨅ l : Fin 1024, tileDist x y r l) := by
  unfold k0_pay7
  simp only [minimumf_apply]
  rw [shapeCast_a_a1_apply]
  refine congrArg (min _) ?_
  refine (multiReduction_minimumf_single (k0_pay6 (F := Ideal) x y) 0x7F800000#32 reduces_S2048x1024_S2048 (.inl rfl) rfl (ix1 r)).trans ?_
  rw [show (FloatOps.ofBits .f32 0x7F800000#32 : Ideal .f32) = (⊤ : EReal) from ofBits_inf_f32]
  refine (fold_min_top_eq_iInf _).trans (iInf_congr fun l => ?_)
  show k0_pay6 (F := Ideal) x y (reduces_S2048x1024_S2048.lift (ix1 r) l) = _
  rw [show reduces_S2048x1024_S2048.lift (ix1 r) l = ix2 r l from
    funext fun a => Fin.ext (by match a with | ⟨0, _⟩ => rfl | ⟨1, _⟩ => rfl)]
  exact pay6_apply x y r l

/-- The column accumulator's new tile: the old one against the tile's column minimum, the same in each of the 8 rows. -/
theorem pay2_apply (d : FVec Ideal S2048x1024 .f32) (acc : Vec Ideal S8x1024 .f32) (s : Fin 8) (l : Fin 1024) :
    k0_pay2 (F := Ideal) d acc (ix2 s l) = min (acc (ix2 s l)) (⨅ r : Fin 2048, d (ix2 r l)) := by
  unfold k0_pay2
  simp only [shapeCast_self, minimumf_apply]
  rw [broadcastTo_1b_ab_apply, shapeCast_a_1a_apply]
  refine congrArg (min _) ?_
  refine (multiReduction_minimumf_single d 0x7F800000#32 reduces_S2048x1024_S1024 (.inl rfl) rfl (ix1 l)).trans ?_
  rw [show (FloatOps.ofBits .f32 0x7F800000#32 : Ideal .f32) = (⊤ : EReal) from ofBits_inf_f32]
  refine (fold_min_top_eq_iInf _).trans (iInf_congr fun r => ?_)
  exact congrArg d (funext fun a => Fin.ext (by match a with | ⟨0, _⟩ => rfl | ⟨1, _⟩ => rfl))

/-- The stored row accumulator is the computed one. -/
theorem pay1_eq {F : FTy → Type} [FloatOps F] (v : FVec F S2048x1 .f32) : k0_pay1 v = v := by
  unfold k0_pay1; exact shapeCast_self _ _

/-- The reset of the column accumulator is `⊤` everywhere. -/
theorem pay4_apply (j : S8x16384.Idx) : k0_pay4 (F := Ideal) j = (⊤ : EReal) := by
  unfold k0_pay4
  simp only [shapeCast_self, broadcast_apply]
  exact ofBits_inf_f32

/-- The reset of the row accumulator is `⊤` everywhere. -/
theorem pay5_apply (j : S2048x1.Idx) : k0_pay5 (F := Ideal) j = (⊤ : EReal) := by
  unfold k0_pay5
  simp only [shapeCast_self, broadcast_apply]
  exact ofBits_inf_f32

/-- The column accumulator written out with a leading unit axis reads, at `(0, s, m)`, the accumulator at `(s, m)`. -/
theorem pay3_apply {F : FTy → Type} [FloatOps F] (v : Vec F S8x16384 .f32) (u : Fin 1) (s : Fin 8) (m : Fin 16384) :
    k0_pay3 v (ix3 u s m) = v (ix2 s m) := by
  unfold k0_pay3
  exact shapeCast_ab_1ab_apply v _ u s m

end Cert.Chamfer.Body

end
-- ==== Proof.Pieces.lean ====
/-
  What each control case of the kernel body leaves in the two carried accumulators and in the two output buffers,
  as pure functions of the input blocks and of what the accumulators held before.

  The row accumulator always ends at `min (old, row minimum of the tile)`, where `old` is the reset value when the
  case resets it.  The column accumulator ends at its old contents (the reset value when the case resets it) with the
  tile's 1024 columns replaced by `min (old tile, column minimum of the tile)` (`colUpdate`).  The forward output, where
  written, is the row accumulator just stored; the backward output, where written, is the column accumulator just stored.
-/
import proofs.«166123_j14620068675781_2_alg».proof.Proof.Gen.KernelIdeal.Frame
import Idealize.ShloMosaic.Lib.Pipeline.Value
import Idealize.ShloMosaic.Lib.WritesUnit
import Idealize.ShloMosaic.Lib.Tactic
import proofs.«166123_j14620068675781_2_alg».proof.Proof.LibMinLayout

noncomputable section

open Idealize.ShloMosaic Idealize.ShloMosaic.TcCoe Idealize.SL.Sem

namespace Cert.Chamfer.Pieces

open Cert.KernelIdeal Cert.KernelIdeal.Gen Cert.LibMinLayout

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rectangle of the column accumulator that the body's tile occupies at grid coordinates `i`. -/
abbrev colRect (i : grid0.Coords) : Rect S8x16384 := Rect.unit (k0_off1 i) S8x1024.size (k0_off1_inb i)

/-- The column accumulator after the body: its old contents with the tile's columns replaced by the minimum of the old tile
    and the tile's column minimum. -/
def colUpdate (i : grid0.Coords) (x0 : Vec F S2048x3 .f32) (x1 : Vec F S3x1024 .f32) (acc : Vec F S8x16384 .f32) :
    Vec F S8x16384 .f32 :=
  (colRect i).overlay acc (k0_pay2 (k0_pay6 x0 x1) (View.ld acc (colRect i)))

theorem sout_A_0 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : cond0_0 i) (hc1 : cond0_1 i) (hc2 : ¬cond0_2 i) (hc3 : ¬cond0_3 i) (x0 : Vec F S2048x3 .f32) (x1 : Vec F S3x1024 .f32) :
    sout0_A_0 c i arg3 harg3 arg4 harg4 arg5 harg5 arg6 harg6 arg7 harg7 arg8 harg8 hc0 hc1 hc2 hc3 x0 x1 = k0_pay1 (k0_pay7 x0 x1 k0_pay5) := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_run_names
  rw [View.canon_cons_unit_zero (S := S2048x1) hz2, View.readCov_unit_zero (S := S2048x1) _ hz2]
  simp only [View.readAt_eq_ld, harg3.read_unread, harg4.read_unread, harg7.read_unread, View.ld_unit_zero (S := S2048x3) hz2, View.ld_unit_zero (S := S3x1024) hz2, View.ld_unit_zero (S := S2048x1) hz2]

theorem sout_B_0 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : ¬cond0_2 i) (hc3 : ¬cond0_3 i) (x0 : Vec F S2048x3 .f32) (x1 : Vec F S3x1024 .f32) (xs0 : Vec F S2048x1 .f32) (xs1 : Vec F S8x16384 .f32) :
    sout0_B_0 c i arg3 harg3 arg4 harg4 arg5 harg5 arg6 harg6 arg7 harg7 arg8 harg8 hc0 hc1 hc2 hc3 x0 x1 xs0 xs1 = k0_pay1 (k0_pay7 x0 x1 xs0) := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_run_names
  rw [View.canon_unit_zero hz2]
  simp only [View.readAt_eq_ld, harg3.read_unread, harg4.read_unread, harg7.read_unread, View.ld_unit_zero (S := S2048x3) hz2, View.ld_unit_zero (S := S3x1024) hz2, View.ld_unit_zero (S := S2048x1) hz2]

theorem sout_C_0 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : ¬cond0_3 i) (x0 : Vec F S2048x3 .f32) (x1 : Vec F S3x1024 .f32) (xs0 : Vec F S2048x1 .f32) (xs1 : Vec F S8x16384 .f32) :
    sout0_C_0 c i arg3 harg3 arg4 harg4 arg5 harg5 arg6 harg6 arg7 harg7 arg8 harg8 hc0 hc1 hc2 hc3 x0 x1 xs0 xs1 = k0_pay1 (k0_pay7 x0 x1 xs0) := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero hz2]
  simp only [View.readAt_eq_ld, harg3.read_unread, harg4.read_unread, harg7.read_unread, View.ld_unit_zero (S := S2048x3) hz2, View.ld_unit_zero (S := S3x1024) hz2, View.ld_unit_zero (S := S2048x1) hz2]

theorem sout_D_0 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : cond0_1 i) (hc2 : ¬cond0_2 i) (hc3 : ¬cond0_3 i) (x0 : Vec F S2048x3 .f32) (x1 : Vec F S3x1024 .f32) (xs1 : Vec F S8x16384 .f32) :
    sout0_D_0 c i arg3 harg3 arg4 harg4 arg5 harg5 arg6 harg6 arg7 harg7 arg8 harg8 hc0 hc1 hc2 hc3 x0 x1 xs1 = k0_pay1 (k0_pay7 x0 x1 k0_pay5) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_run_names
  rw [View.canon_cons_unit_zero (S := S2048x1) hz2, View.readCov_unit_zero (S := S2048x1) _ hz2]
  simp only [View.readAt_eq_ld, harg3.read_unread, harg4.read_unread, harg7.read_unread, View.ld_unit_zero (S := S2048x3) hz2, View.ld_unit_zero (S := S3x1024) hz2, View.ld_unit_zero (S := S2048x1) hz2]

theorem sout_E_0 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : cond0_3 i) (x0 : Vec F S2048x3 .f32) (x1 : Vec F S3x1024 .f32) (xs0 : Vec F S2048x1 .f32) (xs1 : Vec F S8x16384 .f32) :
    sout0_E_0 c i arg3 harg3 arg4 harg4 arg5 harg5 arg6 harg6 arg7 harg7 arg8 harg8 hc0 hc1 hc2 hc3 x0 x1 xs0 xs1 = k0_pay1 (k0_pay7 x0 x1 xs0) := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz2]
  simp only [View.readAt_eq_ld, harg3.read_unread, harg4.read_unread, harg7.read_unread, View.ld_unit_zero (S := S2048x3) hz2, View.ld_unit_zero (S := S3x1024) hz2, View.ld_unit_zero (S := S2048x1) hz2]

theorem sout_B_1 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : ¬cond0_2 i) (hc3 : ¬cond0_3 i) (x0 : Vec F S2048x3 .f32) (x1 : Vec F S3x1024 .f32) (xs0 : Vec F S2048x1 .f32) (xs1 : Vec F S8x16384 .f32) :
    sout0_B_1 c i arg3 harg3 arg4 harg4 arg5 harg5 arg6 harg6 arg7 harg7 arg8 harg8 hc0 hc1 hc2 hc3 x0 x1 xs0 xs1 = colUpdate i x0 x1 xs1 := by
  unfold sout0_B_1
  unfold kernelRun0_B
  dsimp only
  sl_unfold_run_names
  rw [read_writes_single]
  unfold colUpdate colRect
  simp only [View.readAt_eq_ld, harg3.read_unread, harg4.read_unread, harg8.read_unread, View.ld_unit_zero (S := S2048x3) hz2, View.ld_unit_zero (S := S3x1024) hz2]

theorem sout_C_1 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : ¬cond0_3 i) (x0 : Vec F S2048x3 .f32) (x1 : Vec F S3x1024 .f32) (xs0 : Vec F S2048x1 .f32) (xs1 : Vec F S8x16384 .f32) :
    sout0_C_1 c i arg3 harg3 arg4 harg4 arg5 harg5 arg6 harg6 arg7 harg7 arg8 harg8 hc0 hc1 hc2 hc3 x0 x1 xs0 xs1 = colUpdate i x0 x1 xs1 := by
  unfold sout0_C_1
  unfold kernelRun0_C
  dsimp only
  sl_unfold_run_names
  rw [read_writes_single]
  unfold colUpdate colRect
  simp only [View.readAt_eq_ld, harg3.read_unread, harg4.read_unread, harg8.read_unread, View.ld_unit_zero (S := S2048x3) hz2, View.ld_unit_zero (S := S3x1024) hz2]

theorem sout_D_1 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : cond0_1 i) (hc2 : ¬cond0_2 i) (hc3 : ¬cond0_3 i) (x0 : Vec F S2048x3 .f32) (x1 : Vec F S3x1024 .f32) (xs1 : Vec F S8x16384 .f32) :
    sout0_D_1 c i arg3 harg3 arg4 harg4 arg5 harg5 arg6 harg6 arg7 harg7 arg8 harg8 hc0 hc1 hc2 hc3 x0 x1 xs1 = colUpdate i x0 x1 xs1 := by
  unfold sout0_D_1
  unfold kernelRun0_D
  dsimp only
  sl_unfold_run_names
  rw [read_writes_single]
  unfold colUpdate colRect
  simp only [View.readAt_eq_ld, harg3.read_unread, harg4.read_unread, harg8.read_unread, View.ld_unit_zero (S := S2048x3) hz2, View.ld_unit_zero (S := S3x1024) hz2]

theorem sout_E_1 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : cond0_3 i) (x0 : Vec F S2048x3 .f32) (x1 : Vec F S3x1024 .f32) (xs0 : Vec F S2048x1 .f32) (xs1 : Vec F S8x16384 .f32) :
    sout0_E_1 c i arg3 harg3 arg4 harg4 arg5 harg5 arg6 harg6 arg7 harg7 arg8 harg8 hc0 hc1 hc2 hc3 x0 x1 xs0 xs1 = colUpdate i x0 x1 xs1 := by
  unfold sout0_E_1
  unfold kernelRun0_E
  dsimp only
  sl_unfold_run_names
  rw [read_writes_single]
  unfold colUpdate colRect
  simp only [View.readAt_eq_ld, harg3.read_unread, harg4.read_unread, harg8.read_unread, View.ld_unit_zero (S := S2048x3) hz2, View.ld_unit_zero (S := S3x1024) hz2]

theorem out_C_2 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : ¬cond0_3 i) (x0 : Vec F S2048x3 .f32) (x1 : Vec F S3x1024 .f32) (xs0 : Vec F S2048x1 .f32) (xs1 : Vec F S8x16384 .f32) :
    out0_C_2 c i arg3 harg3 arg4 harg4 arg5 harg5 arg6 harg6 arg7 harg7 arg8 harg8 hc0 hc1 hc2 hc3 x0 x1 xs0 xs1 = k0_pay1 (k0_pay7 x0 x1 xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_run_names
  rw [View.canon_unit_zero hz2, View.readCov_unit_zero (S := S2048x1) _ hz2]
  simp only [View.readAt_eq_ld, harg3.read_unread, harg4.read_unread, harg7.read_unread, View.ld_unit_zero (S := S2048x3) hz2, View.ld_unit_zero (S := S3x1024) hz2, View.ld_unit_zero (S := S2048x1) hz2]

theorem out_E_2 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : cond0_3 i) (x0 : Vec F S2048x3 .f32) (x1 : Vec F S3x1024 .f32) (xs0 : Vec F S2048x1 .f32) (xs1 : Vec F S8x16384 .f32) :
    out0_E_2 c i arg3 harg3 arg4 harg4 arg5 harg5 arg6 harg6 arg7 harg7 arg8 harg8 hc0 hc1 hc2 hc3 x0 x1 xs0 xs1 = k0_pay1 (k0_pay7 x0 x1 xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz2, View.readCov_unit_zero (S := S2048x1) _ hz2]
  simp only [View.readAt_eq_ld, harg3.read_unread, harg4.read_unread, harg7.read_unread, View.ld_unit_zero (S := S2048x3) hz2, View.ld_unit_zero (S := S3x1024) hz2, View.ld_unit_zero (S := S2048x1) hz2]

theorem out_E_3 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : ¬cond0_0 i) (hc1 : ¬cond0_1 i) (hc2 : cond0_2 i) (hc3 : cond0_3 i) (x0 : Vec F S2048x3 .f32) (x1 : Vec F S3x1024 .f32) (xs0 : Vec F S2048x1 .f32) (xs1 : Vec F S8x16384 .f32) :
    out0_E_3 c i arg3 harg3 arg4 harg4 arg5 harg5 arg6 harg6 arg7 harg7 arg8 harg8 hc0 hc1 hc2 hc3 x0 x1 xs0 xs1 = k0_pay3 (colUpdate i x0 x1 xs1) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_run_names
  rw [View.canon_unit_zero hz3]
  rw [View.readAt_eq_ld, View.ld_unit_zero (S := S8x16384) hz2, read_writes_single]
  unfold colUpdate colRect
  simp only [View.readAt_eq_ld, harg3.read_unread, harg4.read_unread, harg8.read_unread, View.ld_unit_zero (S := S2048x3) hz2, View.ld_unit_zero (S := S3x1024) hz2]

theorem sout_A_1 (c : Dev nD) (i : grid0.Coords) (arg3 : Memref sig .tc .vmem S2048x3 .f32) (harg3 : arg3.IsWhole) (arg4 : Memref sig .tc .vmem S3x1024 .f32) (harg4 : arg4.IsWhole) (arg5 : Memref sig .tc .vmem S2048x1 .f32) (harg5 : arg5.IsWhole) (arg6 : Memref sig .tc .vmem S1x8x16384 .f32) (harg6 : arg6.IsWhole) (arg7 : Memref sig .tc .vmem S2048x1 .f32) (harg7 : arg7.IsWhole) (arg8 : Memref sig .tc .vmem S8x16384 .f32) (harg8 : arg8.IsWhole) (hc0 : cond0_0 i) (hc1 : cond0_1 i) (hc2 : ¬cond0_2 i) (hc3 : ¬cond0_3 i) (x0 : Vec F S2048x3 .f32) (x1 : Vec F S3x1024 .f32) :
    sout0_A_1 c i arg3 harg3 arg4 harg4 arg5 harg5 arg6 harg6 arg7 harg7 arg8 harg8 hc0 hc1 hc2 hc3 x0 x1 = colUpdate i x0 x1 (k0_pay4 (F := F)) := by
  unfold sout0_A_1
  unfold kernelRun0_A
  dsimp only
  sl_unfold_run_names
  rw [read_writes_cons_overlay, read_writes_whole VS0_1 _ hz2]
  unfold colUpdate colRect
  simp only [View.readAt_eq_ld, harg3.read_unread, harg4.read_unread, View.ld_unit_zero (S := S2048x3) hz2, View.ld_unit_zero (S := S3x1024) hz2]
  rw [read_writes_whole arg8.view _ hz2]

end Cert.Chamfer.Pieces

end
-- ==== Proof.Tiles.lean ====
/-
  The distance plane is visited tile by tile.  Rows come in 8 tiles of 2048 (4 per core), columns in 16 tiles of 1024;
  grid point `t < 128` visits row tile `t / 16` and column tile `t % 16`, so the pair (row `n`, column `m`) is visited at
  point `visit n m = (n / 2048) * 16 + m / 1024`.  Core `c` owns the points `64 c … 64 c + 63`.

  `rowPartial t n` is the minimum of row `n` over the columns visited up to point `t`; `colPartial t m` the minimum of column
  `m` over the rows visited by the core of `t` up to `t`.  The step lemmas say how a running minimum absorbs the tile
  minimum of one more point; the final lemmas say that after a row tile's last column tile the row minimum is complete,
  and that the two cores' column minima together are the whole column's.
-/
import proofs.«166123_j14620068675781_2_alg».proof.Proof.Spec

noncomputable section

namespace Cert.Chamfer

/-- The grid point at which the pair (row `n`, column `m`) is visited. -/
def visit (n m : Fin 16384) : ℕ := (n.val / 2048) * 16 + m.val / 1024

/-- Row `r` of the row tile of point `t`. -/
def rowOf (t : ℕ) (ht : t < 128) (r : Fin 2048) : Fin 16384 := ⟨(t / 16) * 2048 + r.val, by have := r.isLt; omega⟩

/-- Column `l` of the column tile of point `t`. -/
def colOf (t : ℕ) (l : Fin 1024) : Fin 16384 := ⟨(t % 16) * 1024 + l.val, by have := l.isLt; omega⟩

variable (p q : Cloud)

/-- The minimum of row `n` over the columns visited up to point `t`. -/
def rowPartial (t : ℕ) (n : Fin 16384) : EReal := ⨅ m : Fin 16384, ⨅ (_ : visit n m ≤ t), sqDist p q n m

/-- The minimum of column `m` over the rows visited by the core of `t` up to point `t`. -/
def colPartial (t : ℕ) (m : Fin 16384) : EReal :=
  ⨅ n : Fin 16384, ⨅ (_ : (t / 64) * 64 ≤ visit n m ∧ visit n m ≤ t), sqDist p q n m

/-- The minimum of row `r` of point `t`'s tile over the tile's columns. -/
def rowTileMin (t : ℕ) (ht : t < 128) (r : Fin 2048) : EReal := ⨅ l : Fin 1024, sqDist p q (rowOf t ht r) (colOf t l)

/-- The minimum of column `l` of point `t`'s tile over the tile's rows. -/
def colTileMin (t : ℕ) (ht : t < 128) (l : Fin 1024) : EReal := ⨅ r : Fin 2048, sqDist p q (rowOf t ht r) (colOf t l)

/-- The visiting point of a pair whose row lies in the row tile of `t`. -/
private theorem visit_rowOf (t : ℕ) (ht : t < 128) (r : Fin 2048) (m : Fin 16384) :
    visit (rowOf t ht r) m = (t / 16) * 16 + m.val / 1024 := by
  have := r.isLt
  simp only [visit, rowOf]
  omega

/-- The visiting point of a pair whose column lies in the column tile of `t`. -/
private theorem visit_colOf (t : ℕ) (n : Fin 16384) (l : Fin 1024) :
    visit n (colOf t l) = (n.val / 2048) * 16 + t % 16 := by
  have := l.isLt
  simp only [visit, colOf]
  omega

/-- A column in the column tile of `t` is one of the tile's columns. -/
private theorem exists_colOf (t : ℕ) (m : Fin 16384) (hm : m.val / 1024 = t % 16) :
    ∃ l : Fin 1024, colOf t l = m := by
  refine ⟨⟨m.val - (t % 16) * 1024, by have := m.isLt; omega⟩, Fin.ext ?_⟩
  simp only [colOf]
  omega

/-- A row in the row tile of `t` is one of the tile's rows. -/
private theorem exists_rowOf (t : ℕ) (ht : t < 128) (n : Fin 16384) (hn : n.val / 2048 = t / 16) :
    ∃ r : Fin 2048, rowOf t ht r = n := by
  refine ⟨⟨n.val - (t / 16) * 2048, by have := n.isLt; omega⟩, Fin.ext ?_⟩
  simp only [rowOf]
  omega

/-- Within one row tile the previous point has the same rows. -/
private theorem rowOf_pred (t : ℕ) (ht : t < 128) (h : t % 16 ≠ 0) (h' : t - 1 < 128) (r : Fin 2048) :
    rowOf (t - 1) h' r = rowOf t ht r := by
  apply Fin.ext
  simp only [rowOf]
  omega

/-- The tile's row minimum is below every entry of that row in the tile's columns. -/
private theorem rowTileMin_le (t : ℕ) (ht : t < 128) (r : Fin 2048) (m : Fin 16384) (hm : m.val / 1024 = t % 16) :
    rowTileMin p q t ht r ≤ sqDist p q (rowOf t ht r) m := by
  obtain ⟨l, rfl⟩ := exists_colOf t m hm
  exact iInf_le _ l

/-- The tile's column minimum is below every entry of that column in the tile's rows. -/
private theorem colTileMin_le (t : ℕ) (ht : t < 128) (l : Fin 1024) (n : Fin 16384) (hn : n.val / 2048 = t / 16) :
    colTileMin p q t ht l ≤ sqDist p q n (colOf t l) := by
  obtain ⟨r, rfl⟩ := exists_rowOf t ht n hn
  exact iInf_le _ r

/-- At the first column tile the row minimum starts from `⊤`. -/
theorem rowPartial_first (t : ℕ) (ht : t < 128) (h : t % 16 = 0) (r : Fin 2048) :
    min ⊤ (rowTileMin p q t ht r) = rowPartial p q t (rowOf t ht r) := by
  rw [min_top_left]
  unfold rowPartial
  apply le_antisymm
  · refine le_iInf₂ fun m hm => rowTileMin_le p q t ht r m ?_
    rw [visit_rowOf] at hm
    have := m.isLt
    omega
  · refine le_iInf fun l => iInf₂_le (colOf t l) ?_
    rw [visit_rowOf]
    have := l.isLt
    simp only [colOf]
    omega

/-- At a later column tile it absorbs the tile's minimum. -/
theorem rowPartial_step (t : ℕ) (ht : t < 128) (h : t % 16 ≠ 0) (r : Fin 2048) :
    min (rowPartial p q (t - 1) (rowOf (t - 1) (by omega) r)) (rowTileMin p q t ht r) = rowPartial p q t (rowOf t ht r) := by
  rw [rowOf_pred t ht h]
  unfold rowPartial
  apply le_antisymm
  · refine le_iInf₂ fun m hm => ?_
    rw [visit_rowOf] at hm
    by_cases hc : m.val / 1024 = t % 16
    · exact (min_le_right _ _).trans (rowTileMin_le p q t ht r m hc)
    · refine (min_le_left _ _).trans (iInf₂_le m ?_)
      rw [visit_rowOf]
      omega
  · refine le_min (le_iInf₂ fun m hm => iInf₂_le m ?_) (le_iInf fun l => iInf₂_le (colOf t l) ?_)
    · rw [visit_rowOf] at hm ⊢
      omega
    · rw [visit_rowOf]
      have := l.isLt
      simp only [colOf]
      omega

/-- After the last column tile the row minimum is the whole row's. -/
theorem rowPartial_last (t : ℕ) (ht : t < 128) (h : t % 16 = 15) (r : Fin 2048) :
    rowPartial p q t (rowOf t ht r) = nearestFwd p q (rowOf t ht r) := by
  unfold rowPartial nearestFwd
  refine iInf_congr fun m => iInf_pos ?_
  rw [visit_rowOf]
  have := m.isLt
  omega

/-- At a core's first point the column minimum of the tile's columns starts from `⊤`; -/
theorem colPartial_first_in (t : ℕ) (ht : t < 128) (h : t % 64 = 0) (l : Fin 1024) :
    min ⊤ (colTileMin p q t ht l) = colPartial p q t (colOf t l) := by
  rw [min_top_left]
  unfold colPartial
  apply le_antisymm
  · refine le_iInf₂ fun n hn => colTileMin_le p q t ht l n ?_
    rw [visit_colOf] at hn
    omega
  · refine le_iInf fun r => iInf₂_le (rowOf t ht r) ?_
    rw [visit_colOf]
    have := r.isLt
    simp only [rowOf]
    omega

/-- and the other columns have seen nothing. -/
theorem colPartial_first_out (t : ℕ) (ht : t < 128) (h : t % 64 = 0) (m : Fin 16384) (hm : m.val / 1024 ≠ t % 16) :
    (⊤ : EReal) = colPartial p q t m := by
  unfold colPartial
  refine le_antisymm (le_iInf₂ fun n hn => absurd hn ?_) le_top
  have := m.isLt
  simp only [visit]
  omega

/-- At a later point the tile's columns absorb the tile's minimum; -/
theorem colPartial_step_in (t : ℕ) (ht : t < 128) (h : t % 64 ≠ 0) (l : Fin 1024) :
    min (colPartial p q (t - 1) (colOf t l)) (colTileMin p q t ht l) = colPartial p q t (colOf t l) := by
  unfold colPartial
  have h64 : (t - 1) / 64 = t / 64 := by omega
  rw [h64]
  apply le_antisymm
  · refine le_iInf₂ fun n hn => ?_
    rw [visit_colOf] at hn
    by_cases hc : n.val / 2048 = t / 16
    · exact (min_le_right _ _).trans (colTileMin_le p q t ht l n hc)
    · refine (min_le_left _ _).trans (iInf₂_le n ?_)
      rw [visit_colOf]
      omega
  · refine le_min (le_iInf₂ fun n hn => iInf₂_le n ?_) (le_iInf fun r => iInf₂_le (rowOf t ht r) ?_)
    · omega
    · rw [visit_colOf]
      have := r.isLt
      simp only [rowOf]
      omega

/-- and the other columns keep theirs. -/
theorem colPartial_step_out (t : ℕ) (ht : t < 128) (h : t % 64 ≠ 0) (m : Fin 16384) (hm : m.val / 1024 ≠ t % 16) :
    colPartial p q (t - 1) m = colPartial p q t m := by
  unfold colPartial
  have h64 : (t - 1) / 64 = t / 64 := by omega
  rw [h64]
  refine iInf_congr fun n => iInf_congr_Prop ?_ fun _ => rfl
  have := m.isLt
  simp only [visit]
  omega

/-- The two cores' column minima, folded from `⊤`, are the whole column's. -/
theorem colPartial_cores (m : Fin 16384) :
    min (min ⊤ (colPartial p q 63 m)) (colPartial p q 127 m) = nearestBwd p q m := by
  rw [min_top_left]
  unfold colPartial nearestBwd
  apply le_antisymm
  · refine le_iInf fun n => ?_
    by_cases hc : visit n m ≤ 63
    · exact (min_le_left _ _).trans (iInf₂_le n ⟨by omega, hc⟩)
    · refine (min_le_right _ _).trans (iInf₂_le n ⟨by omega, ?_⟩)
      have := n.isLt
      have := m.isLt
      simp only [visit] at hc ⊢
      omega
  · exact le_min (le_iInf₂ fun n _ => iInf_le _ n) (le_iInf₂ fun n _ => iInf_le _ n)

end Cert.Chamfer

end
-- ==== Proof.Blocks.lean ====
/-
  The input blocks of one grid point, read off the two launched clouds, and what one run of the body does to the two
  accumulators in terms of the clouds.

  Grid point `t` fetches rows `(t / 16) · 2048 …` of the first cloud (as 2048 × 3) and columns `(t % 16) · 1024 …` of the
  second cloud transposed (as 3 × 1024).  So the body's distance tile at (r, l) is the squared distance between point
  `rowOf t r` of the first cloud and point `colOf t l` of the second; the row accumulator absorbs the tile's row minimum,
  the column accumulator absorbs the tile's column minimum on the tile's columns and keeps every other column.
-/
import proofs.«166123_j14620068675781_2_alg».proof.Proof.Gen.KernelIdeal.Frame
import proofs.«166123_j14620068675781_2_alg».proof.Proof.Body
import proofs.«166123_j14620068675781_2_alg».proof.Proof.Pieces
import proofs.«166123_j14620068675781_2_alg».proof.Proof.Tiles
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.Chamfer.K

open Cert.KernelIdeal Cert.KernelIdeal.Gen Cert.Chamfer.Body Cert.Chamfer.Pieces

variable (m : (ℓ : Loc nD τ sig) → Buf (Elt Ideal) ℓ) (c : Dev nD)

/-- The first cloud, as launched. -/
abbrev cloudP : Cloud := m ((c : Thread nD τ).loc main_arg0)
/-- The second cloud, as launched. -/
abbrev cloudQ : Cloud := m ((c : Thread nD τ).loc main_arg1)

/-- The block of the first cloud that grid point `t` works on: 2048 points by 3 coordinates. -/
abbrev xblk (t : Fin cfg0.N) : Vec Ideal S2048x3 .f32 := iblk m c 0 t
/-- The block of the transposed second cloud that grid point `t` works on: 3 coordinates by 1024 points. -/
abbrev yblk (t : Fin cfg0.N) : Vec Ideal S3x1024 .f32 := iblk m c 1 t

theorem tlt (t : Fin cfg0.N) : t.val < 128 := lt_of_lt_of_eq t.isLt N_0

/-- The array the first window reads is the first cloud with its leading unit axis dropped. -/
private theorem V_v0 : (V m c main_v0 : S16384x3.Idx → EReal)
    = shapeCast S16384x3 (m ((c : Thread nD τ).loc main_arg0)) shapeCasts_S1x16384x3_S16384x3 := by
  show StableHlo.after hostOps0 (fun b => m (c, b)) (Proc.devRef .tc main_v0) = _
  after_results
  rfl

/-- The array the second window reads is the second cloud with its leading unit axis dropped, transposed. -/
private theorem V_v2 : (V m c main_v2 : S3x16384.Idx → EReal)
    = transpose S3x16384 [1, 0] (shapeCast S16384x3 (m ((c : Thread nD τ).loc main_arg1)) shapeCasts_S1x16384x3_S16384x3)
        transposes_S16384x3_S3x16384_1_0 := by
  show StableHlo.after hostOps0 (fun b => m (c, b)) (Proc.devRef .tc main_v2) = _
  after_results
  rfl

/-- The first window's block index at point `t` is `(t / 16, 0)`: decided over the 128 points. -/
private theorem idx0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)

/-- The second window's block index at point `t` is `(0, t % 16)`: decided over the 128 points. -/
private theorem idx1 : ∀ t : Fin cfg0.N, win0_1.index t (0 : Fin 2) = 0 ∧ win0_1.index t (1 : Fin 2) = t.val % 16 :=
  (by decide +kernel : ∀ t : Fin grid0.N, win0_1.index t (0 : Fin 2) = 0 ∧ win0_1.index t (1 : Fin 2) = t.val % 16)

/-- The column tile's offsets at point `t` are `(0, (t % 16) · 1024)`: decided over the 128 points. -/
private theorem off1 : ∀ t : Fin cfg0.N,
    k0_off1 (grid0.coords t) 0 = 0 ∧ k0_off1 (grid0.coords t) 1 = (t.val % 16) * 1024 :=
  (by decide +kernel : ∀ t : Fin grid0.N,
    k0_off1 (grid0.coords t) 0 = 0 ∧ k0_off1 (grid0.coords t) 1 = (t.val % 16) * 1024)

/-- Position `(s, l)` of the column tile of point `t` sits at `(s, colOf t l)` in the column accumulator. -/
private theorem colRect_emb (t : Fin cfg0.N) (s : Fin 8) (l : Fin 1024) :
    (colRect (grid0.coords t)).emb (ix2 s l) = (ix2 s (colOf t.val l) : S8x16384.Idx) := by
  funext a
  apply Fin.ext
  match a with
  | ⟨0, _⟩ =>
    show k0_off1 (grid0.coords t) 0 + 1 * s.val = s.val
    rw [(off1 t).1]; omega
  | ⟨1, _⟩ =>
    show k0_off1 (grid0.coords t) 1 + 1 * l.val = (t.val % 16) * 1024 + l.val
    rw [(off1 t).2]; omega

/-- Row `r`, coordinate `k` of the first block is point `rowOf t r` of the first cloud. -/
theorem xblk_apply (t : Fin cfg0.N) (r : Fin 2048) (k : Fin 3) :
    xblk m c t (ix2 r k) = (cloudP m c).coord (rowOf t.val (tlt t) r) k := by
  unfold xblk iblk
  rw [View.read_apply]
  show V m c main_v0 (((cfg0.win 0).blk t).view.emb (ix2 r k)) = _
  have he : ((cfg0.win 0).blk t).view.emb (ix2 r k) = (ix2 (rowOf t.val (tlt t) r) k : S16384x3.Idx) := by
    funext a
    apply Fin.ext
    match a with
    | ⟨0, _⟩ =>
      show win0_0.index t 0 * 2048 + 1 * r.val = (t.val / 16) * 2048 + r.val
      rw [(idx0 t).1]; omega
    | ⟨1, _⟩ =>
      show win0_0.index t 1 * 3 + 1 * k.val = k.val
      rw [(idx0 t).2]; omega
  rw [he, V_v0, shapeCast_1ab_ab_apply]

/-- Coordinate `k`, column `l` of the second block is point `colOf t l` of the second cloud. -/
theorem yblk_apply (t : Fin cfg0.N) (k : Fin 3) (l : Fin 1024) :
    yblk m c t (ix2 k l) = (cloudQ m c).coord (colOf t.val l) k := by
  unfold yblk iblk
  rw [View.read_apply]
  show V m c main_v2 (((cfg0.win 1).blk t).view.emb (ix2 k l)) = _
  have he : ((cfg0.win 1).blk t).view.emb (ix2 k l) = (ix2 k (colOf t.val l) : S3x16384.Idx) := by
    funext a
    apply Fin.ext
    match a with
    | ⟨0, _⟩ =>
      show win0_1.index t 0 * 3 + 1 * k.val = k.val
      rw [(idx1 t).1]; omega
    | ⟨1, _⟩ =>
      show win0_1.index t 1 * 1024 + 1 * l.val = (t.val % 16) * 1024 + l.val
      rw [(idx1 t).2]; omega
  rw [he, V_v2, transpose_ix2_apply, shapeCast_1ab_ab_apply]

/-- The body's distance tile is the squared distance between the two points. -/
theorem tileDist_eq (t : Fin cfg0.N) (r : Fin 2048) (l : Fin 1024) :
    tileDist (xblk m c t) (yblk m c t) r l = sqDist (cloudP m c) (cloudQ m c) (rowOf t.val (tlt t) r) (colOf t.val l) := by
  unfold tileDist sqDist
  rw [xblk_apply m c t r 0, xblk_apply m c t r 1, xblk_apply m c t r 2,
    yblk_apply m c t 0 l, yblk_apply m c t 1 l, yblk_apply m c t 2 l]

/-- One run of the body on the row accumulator: the old value against the tile's row minimum. -/
theorem rowStep (t : Fin cfg0.N) (acc : Vec Ideal S2048x1 .f32) (r : Fin 2048) (u : Fin 1) :
    k0_pay1 (k0_pay7 (xblk m c t) (yblk m c t) acc) (ix2 r u)
      = min (acc (ix2 r u)) (rowTileMin (cloudP m c) (cloudQ m c) t.val (tlt t) r) := by
  rw [pay1_eq, pay7_apply]
  unfold rowTileMin
  exact congrArg (min _) (iInf_congr fun l => tileDist_eq m c t r l)

/-- One run of the body on the column accumulator, at a column of the tile: the old value against the tile's column minimum; -/
theorem colStep_in (t : Fin cfg0.N) (acc : Vec Ideal S8x16384 .f32) (s : Fin 8) (l : Fin 1024) :
    colUpdate (grid0.coords t) (xblk m c t) (yblk m c t) acc (ix2 s (colOf t.val l))
      = min (acc (ix2 s (colOf t.val l))) (colTileMin (cloudP m c) (cloudQ m c) t.val (tlt t) l) := by
  unfold colUpdate
  rw [← colRect_emb t s l, Rect.overlay_emb, pay2_apply]
  unfold colTileMin
  refine congrArg (min _) (iInf_congr fun r => ?_)
  rw [pay6_apply]
  exact tileDist_eq m c t r l

/-- at any other column: unchanged. -/
theorem colStep_out (t : Fin cfg0.N) (acc : Vec Ideal S8x16384 .f32) (s : Fin 8) (mm : Fin 16384)
    (h : mm.val / 1024 ≠ t.val % 16) :
    colUpdate (grid0.coords t) (xblk m c t) (yblk m c t) acc (ix2 s mm) = acc (ix2 s mm) := by
  unfold colUpdate
  refine Rect.overlay_of_not_mem _ _ _ fun hmem => ?_
  have h1 := (Rect.mem_set_unit.mp hmem) (1 : Fin 2)
  rw [(off1 t).2] at h1
  have e1 : ((ix2 s mm : S8x16384.Idx) (1 : Fin 2) : ℕ) = mm.val := rfl
  have e2 : S8x1024.size (1 : Fin 2) = 1024 := rfl
  rw [e1, e2] at h1
  omega

end Cert.Chamfer.K

end
-- ==== Proof.Invariant.lean ====
/-
  What the two accumulators hold after each grid point, and what the two outputs hold where they are written back.

  By induction on the grid point: the row accumulator after point `n` is the minimum of its row over the columns visited so
  far (`rowPartial`), the column accumulator the minimum of its column over the rows its core has visited so far
  (`colPartial`, the same in each of the 8 rows).  A point that resets an accumulator starts it from `⊤`; every point then
  absorbs its tile.  The forward output is written from the row accumulator after a row tile's last column tile, when the
  row minimum is complete; the backward output is written from the column accumulator at a core's last point.
-/
import proofs.«166123_j14620068675781_2_alg».proof.Proof.Blocks

noncomputable section

open Idealize.ShloMosaic Idealize.ShloMosaic.TcCoe Idealize.SL.Sem Idealize.ShloMosaic.ValueIdx

namespace Cert.Chamfer.K

open Cert.KernelIdeal Cert.KernelIdeal.Gen Cert.Chamfer.Body Cert.Chamfer.Pieces

variable (m : (ℓ : Loc nD τ sig) → Buf (Elt Ideal) ℓ) (c : Dev nD)

/-- The row accumulator after point `n`. -/
abbrev rowAcc (n : ℕ) (h : n < cfg0.N) : Vec Ideal S2048x1 .f32 := (outsAt0 m c n h).2.2.1
/-- The column accumulator after point `n`. -/
abbrev colAcc (n : ℕ) (h : n < cfg0.N) : Vec Ideal S8x16384 .f32 := (outsAt0 m c n h).2.2.2

/-- The statement carried through the grid. -/
def Inv (n : ℕ) (h : n < cfg0.N) : Prop :=
  (∀ (r : Fin 2048) (u : Fin 1), rowAcc m c n h (ix2 r u)
      = rowPartial (cloudP m c) (cloudQ m c) n (rowOf n (lt_of_lt_of_eq h N_0) r))
  ∧ (∀ (s : Fin 8) (mm : Fin 16384), colAcc m c n h (ix2 s mm) = colPartial (cloudP m c) (cloudQ m c) n mm)

/-- Every column lies in or out of the tile of point `n`. -/
theorem col_cases (n : ℕ) (mm : Fin 16384) :
    (∃ l : Fin 1024, mm = colOf n l) ∨ mm.val / 1024 ≠ n % 16 := by
  by_cases h : mm.val / 1024 = n % 16
  · exact .inl ⟨⟨mm.val - (n % 16) * 1024, by have := mm.isLt; omega⟩, Fin.ext (by simp only [colOf]; omega)⟩
  · exact .inr h

/-- The step at a point of case A. -/
theorem inv_A (t : Fin cfg0.N) (h0 : t.val % 64 = 0) (h1 : t.val % 16 = 0) (h2 : ¬t.val % 16 = 15) (h3 : ¬t.val % 64 = 63) : Inv m c t.val t.isLt := by
  have hN := tlt t
  unfold Inv rowAcc colAcc
  rw [outsAt0_A m c t h0 h1 h2 h3]
  dsimp only
  refine ⟨fun r u => ?_, fun s mm => ?_⟩
  · refine (congrFun (sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) ) (ix2 r u)).trans ?_
    refine (rowStep m c t _ r u).trans ?_
    rw [pay5_apply]
    exact rowPartial_first (cloudP m c) (cloudQ m c) t.val (tlt t) (by omega) r
  · refine (congrFun (sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t) ) (ix2 s mm)).trans ?_
    rcases col_cases t.val mm with ⟨l, rfl⟩ | hm
    · refine (colStep_in m c t _ s l).trans ?_
      rw [pay4_apply]
      exact colPartial_first_in (cloudP m c) (cloudQ m c) t.val (tlt t) h0 l
    · refine (colStep_out m c t _ s mm hm).trans ?_
      rw [pay4_apply]
      exact colPartial_first_out (cloudP m c) (cloudQ m c) t.val (tlt t) h0 mm hm

/-- The step at a point of case B. -/
theorem inv_B (t : Fin cfg0.N) (h0 : ¬t.val % 64 = 0) (h1 : ¬t.val % 16 = 0) (h2 : ¬t.val % 16 = 15) (h3 : ¬t.val % 64 = 63) (ih : Inv m c (t.val - 1) (Nat.lt_of_le_of_lt (Nat.sub_le _ _) t.isLt)) : Inv m c t.val t.isLt := by
  have hN := tlt t
  unfold Inv rowAcc colAcc
  rw [outsAt0_B m c t h0 h1 h2 h3]
  dsimp only
  refine ⟨fun r u => ?_, fun s mm => ?_⟩
  · refine (congrFun (sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
    refine (rowStep m c t _ r u).trans ?_
    rw [show (outsAt0 m c (t.val - 1) (Nat.lt_of_le_of_lt (Nat.sub_le _ _) t.isLt)).2.2.1 (ix2 r u) = _ from ih.1 r u]
    exact rowPartial_step (cloudP m c) (cloudQ m c) t.val (tlt t) h1 r
  · refine (congrFun (sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s mm)).trans ?_
    rcases col_cases t.val mm with ⟨l, rfl⟩ | hm
    · refine (colStep_in m c t _ s l).trans ?_
      rw [show (outsAt0 m c (t.val - 1) (Nat.lt_of_le_of_lt (Nat.sub_le _ _) t.isLt)).2.2.2 (ix2 s (colOf t.val l)) = _ from ih.2 s (colOf t.val l)]
      exact colPartial_step_in (cloudP m c) (cloudQ m c) t.val (tlt t) h0 l
    · refine (colStep_out m c t _ s mm hm).trans ?_
      rw [show (outsAt0 m c (t.val - 1) (Nat.lt_of_le_of_lt (Nat.sub_le _ _) t.isLt)).2.2.2 (ix2 s mm) = _ from ih.2 s mm]
      exact colPartial_step_out (cloudP m c) (cloudQ m c) t.val (tlt t) h0 mm hm

/-- The step at a point of case C. -/
theorem inv_C (t : Fin cfg0.N) (h0 : ¬t.val % 64 = 0) (h1 : ¬t.val % 16 = 0) (h2 : t.val % 16 = 15) (h3 : ¬t.val % 64 = 63) (ih : Inv m c (t.val - 1) (Nat.lt_of_le_of_lt (Nat.sub_le _ _) t.isLt)) : Inv m c t.val t.isLt := by
  have hN := tlt t
  unfold Inv rowAcc colAcc
  rw [outsAt0_C m c t h0 h1 h2 h3]
  dsimp only
  refine ⟨fun r u => ?_, fun s mm => ?_⟩
  · refine (congrFun (sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
    refine (rowStep m c t _ r u).trans ?_
    rw [show (outsAt0 m c (t.val - 1) (Nat.lt_of_le_of_lt (Nat.sub_le _ _) t.isLt)).2.2.1 (ix2 r u) = _ from ih.1 r u]
    exact rowPartial_step (cloudP m c) (cloudQ m c) t.val (tlt t) h1 r
  · refine (congrFun (sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s mm)).trans ?_
    rcases col_cases t.val mm with ⟨l, rfl⟩ | hm
    · refine (colStep_in m c t _ s l).trans ?_
      rw [show (outsAt0 m c (t.val - 1) (Nat.lt_of_le_of_lt (Nat.sub_le _ _) t.isLt)).2.2.2 (ix2 s (colOf t.val l)) = _ from ih.2 s (colOf t.val l)]
      exact colPartial_step_in (cloudP m c) (cloudQ m c) t.val (tlt t) h0 l
    · refine (colStep_out m c t _ s mm hm).trans ?_
      rw [show (outsAt0 m c (t.val - 1) (Nat.lt_of_le_of_lt (Nat.sub_le _ _) t.isLt)).2.2.2 (ix2 s mm) = _ from ih.2 s mm]
      exact colPartial_step_out (cloudP m c) (cloudQ m c) t.val (tlt t) h0 mm hm

/-- The step at a point of case D. -/
theorem inv_D (t : Fin cfg0.N) (h0 : ¬t.val % 64 = 0) (h1 : t.val % 16 = 0) (h2 : ¬t.val % 16 = 15) (h3 : ¬t.val % 64 = 63) (ih : Inv m c (t.val - 1) (Nat.lt_of_le_of_lt (Nat.sub_le _ _) t.isLt)) : Inv m c t.val t.isLt := by
  have hN := tlt t
  unfold Inv rowAcc colAcc
  rw [outsAt0_D m c t h0 h1 h2 h3]
  dsimp only
  refine ⟨fun r u => ?_, fun s mm => ?_⟩
  · refine (congrFun (sout_D_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2) (ix2 r u)).trans ?_
    refine (rowStep m c t _ r u).trans ?_
    rw [pay5_apply]
    exact rowPartial_first (cloudP m c) (cloudQ m c) t.val (tlt t) (by omega) r
  · refine (congrFun (sout_D_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2) (ix2 s mm)).trans ?_
    rcases col_cases t.val mm with ⟨l, rfl⟩ | hm
    · refine (colStep_in m c t _ s l).trans ?_
      rw [show (outsAt0 m c (t.val - 1) (Nat.lt_of_le_of_lt (Nat.sub_le _ _) t.isLt)).2.2.2 (ix2 s (colOf t.val l)) = _ from ih.2 s (colOf t.val l)]
      exact colPartial_step_in (cloudP m c) (cloudQ m c) t.val (tlt t) h0 l
    · refine (colStep_out m c t _ s mm hm).trans ?_
      rw [show (outsAt0 m c (t.val - 1) (Nat.lt_of_le_of_lt (Nat.sub_le _ _) t.isLt)).2.2.2 (ix2 s mm) = _ from ih.2 s mm]
      exact colPartial_step_out (cloudP m c) (cloudQ m c) t.val (tlt t) h0 mm hm

/-- The step at a point of case E. -/
theorem inv_E (t : Fin cfg0.N) (h0 : ¬t.val % 64 = 0) (h1 : ¬t.val % 16 = 0) (h2 : t.val % 16 = 15) (h3 : t.val % 64 = 63) (ih : Inv m c (t.val - 1) (Nat.lt_of_le_of_lt (Nat.sub_le _ _) t.isLt)) : Inv m c t.val t.isLt := by
  have hN := tlt t
  unfold Inv rowAcc colAcc
  rw [outsAt0_E m c t h0 h1 h2 h3]
  dsimp only
  refine ⟨fun r u => ?_, fun s mm => ?_⟩
  · refine (congrFun (sout_E_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r u)).trans ?_
    refine (rowStep m c t _ r u).trans ?_
    rw [show (outsAt0 m c (t.val - 1) (Nat.lt_of_le_of_lt (Nat.sub_le _ _) t.isLt)).2.2.1 (ix2 r u) = _ from ih.1 r u]
    exact rowPartial_step (cloudP m c) (cloudQ m c) t.val (tlt t) h1 r
  · refine (congrFun (sout_E_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 s mm)).trans ?_
    rcases col_cases t.val mm with ⟨l, rfl⟩ | hm
    · refine (colStep_in m c t _ s l).trans ?_
      rw [show (outsAt0 m c (t.val - 1) (Nat.lt_of_le_of_lt (Nat.sub_le _ _) t.isLt)).2.2.2 (ix2 s (colOf t.val l)) = _ from ih.2 s (colOf t.val l)]
      exact colPartial_step_in (cloudP m c) (cloudQ m c) t.val (tlt t) h0 l
    · refine (colStep_out m c t _ s mm hm).trans ?_
      rw [show (outsAt0 m c (t.val - 1) (Nat.lt_of_le_of_lt (Nat.sub_le _ _) t.isLt)).2.2.2 (ix2 s mm) = _ from ih.2 s mm]
      exact colPartial_step_out (cloudP m c) (cloudQ m c) t.val (tlt t) h0 mm hm

/-- After every point the accumulators hold the partial minima. -/
theorem inv_all : ∀ (n : ℕ) (h : n < cfg0.N), Inv m c n h
  | 0, h => inv_A m c ⟨0, h⟩ rfl rfl (by show ¬(0 : ℕ) % 16 = 15; omega) (by show ¬(0 : ℕ) % 64 = 63; omega)
  | n + 1, h => by
    have ih := inv_all n (Nat.lt_of_succ_lt h)
    have hN : n + 1 < 128 := lt_of_lt_of_eq h N_0
    by_cases h0 : (n + 1) % 64 = 0
    · exact inv_A m c ⟨n + 1, h⟩ h0 (by show (n + 1) % 16 = 0; omega) (by show ¬(n + 1) % 16 = 15; omega) (by show ¬(n + 1) % 64 = 63; omega)
    · by_cases h1 : (n + 1) % 16 = 0
      · exact inv_D m c ⟨n + 1, h⟩ h0 h1 (by show ¬(n + 1) % 16 = 15; omega) (by show ¬(n + 1) % 64 = 63; omega) ih
      · by_cases h2 : (n + 1) % 16 = 15
        · by_cases h3 : (n + 1) % 64 = 63
          · exact inv_E m c ⟨n + 1, h⟩ h0 h1 h2 h3 ih
          · exact inv_C m c ⟨n + 1, h⟩ h0 h1 h2 h3 ih
        · exact inv_B m c ⟨n + 1, h⟩ h0 h1 h2 (by show ¬(n + 1) % 64 = 63; omega) ih

/-- The row accumulator after point `t`, in terms of the clouds. -/
theorem rowAcc_eq (t : Fin cfg0.N) (r : Fin 2048) (u : Fin 1) :
    rowAcc m c t.val t.isLt (ix2 r u) = rowPartial (cloudP m c) (cloudQ m c) t.val (rowOf t.val (tlt t) r) :=
  (inv_all m c t.val t.isLt).1 r u

/-- The column accumulator after point `t`, in terms of the clouds. -/
theorem colAcc_eq (t : Fin cfg0.N) (s : Fin 8) (mm : Fin 16384) :
    colAcc m c t.val t.isLt (ix2 s mm) = colPartial (cloudP m c) (cloudQ m c) t.val mm :=
  (inv_all m c t.val t.isLt).2 s mm

/-- Where the forward output is written (after a row tile's last column tile) it holds the complete row minima. -/
theorem out_fwd (t : Fin cfg0.N) (hf : t.val % 16 = 15) (r : Fin 2048) (u : Fin 1) :
    (outsAt0 m c t.val t.isLt).1 (ix2 r u) = nearestFwd (cloudP m c) (cloudQ m c) (rowOf t.val (tlt t) r) := by
  have hN := tlt t
  have h0 : ¬t.val % 64 = 0 := by omega
  have h1 : ¬t.val % 16 = 0 := by omega
  have key : (outsAt0 m c t.val t.isLt).1 = (outsAt0 m c t.val t.isLt).2.2.1 := by
    by_cases h3 : t.val % 64 = 63
    · rw [outsAt0_E m c t h0 h1 hf h3]
      dsimp only
      exact (out_E_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr hf) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
        (sout_E_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr hf) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm
    · rw [outsAt0_C m c t h0 h1 hf h3]
      dsimp only
      exact (out_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr hf) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
        (sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr hf) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm
  rw [key]
  exact (rowAcc_eq m c t r u).trans (rowPartial_last (cloudP m c) (cloudQ m c) t.val (tlt t) hf r)

/-- Where the backward output is written (at a core's last point) it holds the core's column minima. -/
theorem out_bwd (t : Fin cfg0.N) (hf : t.val % 64 = 63) (u : Fin 1) (s : Fin 8) (mm : Fin 16384) :
    (outsAt0 m c t.val t.isLt).2.1 (ix3 u s mm) = colPartial (cloudP m c) (cloudQ m c) t.val mm := by
  have hN := tlt t
  have h0 : ¬t.val % 64 = 0 := by omega
  have h1 : ¬t.val % 16 = 0 := by omega
  have h2 : t.val % 16 = 15 := by omega
  have key : (outsAt0 m c t.val t.isLt).2.1 = k0_pay3 ((outsAt0 m c t.val t.isLt).2.2.2) := by
    rw [outsAt0_E m c t h0 h1 h2 hf]
    dsimp only
    exact (out_E_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr hf) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg k0_pay3 (sout_E_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr hf) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)
  rw [key, pay3_apply]
  exact colAcc_eq m c t s mm

end Cert.Chamfer.K

end
-- ==== Proof.Final.lean ====
/-
  From the write-backs to the program's two results.

  The forward output array is written back block by block, after each row tile's last column tile, with the complete row
  minima: it ends as the column of nearest distances.  The backward output array gets, at each core's last point, that core's
  column minima in each of its 8 rows.  The host operations after the kernel drop the forward array's unit axis, and take
  row 0 of each core's backward block and fold the two cores with `min` from `⊤`: the whole column's minimum.
-/
import proofs.«166123_j14620068675781_2_alg».proof.Proof.Invariant
import Idealize.ShloMosaic.PureOps.Reduce

noncomputable section

open Idealize.ShloMosaic Idealize.ShloMosaic.TcCoe Idealize.SL.Sem Idealize.ShloMosaic.ValueIdx
open Idealize.ShloMosaic.Pipeline (Dat)

namespace Cert.Chamfer.K

open Cert.KernelIdeal Cert.KernelIdeal.Gen Cert.Chamfer.Body Cert.Chamfer.Pieces

variable (m : (ℓ : Loc nD τ sig) → Buf (Elt Ideal) ℓ) (ρ : Dev nD → PrngReg) (c : Dev nD)

/-- The forward output array after the kernel: the nearest distances, as a column. -/
def fwdArr : S16384x1.Idx → EReal := fun j => nearestFwd (cloudP m c) (cloudQ m c) (j 0)

/-- The backward output array after the kernel: core `j 0`'s column minima, in each of its 8 rows. -/
def bwdArr : S2x8x16384.Idx → EReal := fun j => colPartial (cloudP m c) (cloudQ m c) ((j 0).val * 64 + 63) (j 2)

/-- The forward window's block index at point `t` is `(t / 16, 0)`: decided over the 128 points. -/
theorem idxFwd : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)

/-- The backward window's block index at point `t` is `(t / 64, 0, 0)`: decided over the 128 points. -/
theorem idxBwd : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- What a point that writes the forward block back writes: its block of `fwdArr`. -/
theorem flushedFwd (t : Fin cfg0.N) (hf : (cfg0.win 2).flush t = true) :
    (dats m 0 c).flushed 2 t = ((cfg0.win 2).blk t).view.read (Elt Ideal) (fwdArr m c) := by
  show (cfg0.win 2).cut (grid0.coords t) ((dats m 0 c).after 2 t) = _
  rw [after0_2]
  funext y
  obtain ⟨r, u, rfl⟩ : ∃ (r : Fin 2048) (u : Fin 1), y = ix2 r u := ⟨y 0, y 1, eq_ix2 y⟩
  rw [View.read_apply]
  refine (out_fwd m c t ((flush0_2 t).mp hf) r u).trans ?_
  unfold fwdArr
  refine congrArg (nearestFwd (cloudP m c) (cloudQ m c)) (Fin.ext ?_)
  show (t.val / 16) * 2048 + r.val = win0_2.index t 0 * 2048 + 1 * r.val
  rw [(idxFwd t).1]; omega

/-- An index of the forward array is in point `t`'s block iff each coordinate is in the block's range on its axis. -/
theorem mem_blkFwd (t : Fin cfg0.N) (i : S16384x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v3_0).slice (win0_2.rect t)).set ↔ _
  rw [View.set_slice_whole, Rect.mem_set_unit]
  exact Iff.rfl

/-- Every index of the forward array lies in the block written back after its row tile's last column tile. -/
theorem coverFwd (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  have hN : cfg0.N = 128 := N_0
  obtain ⟨t, ht⟩ : ∃ t : Fin cfg0.N, t.val = (i 0).val / 2048 * 16 + 15 :=
    ⟨⟨(i 0).val / 2048 * 16 + 15, by rw [hN]; omega⟩, rfl⟩
  refine ⟨t, (flush0_2 t).mpr (by omega), ?_⟩
  rw [mem_blkFwd]
  intro a
  match a with
  | ⟨0, _⟩ =>
    show win0_2.index t (0 : Fin 2) * 2048 ≤ (i 0).val ∧ (i 0).val < win0_2.index t (0 : Fin 2) * 2048 + 2048
    rw [(idxFwd t).1]
    omega
  | ⟨1, _⟩ =>
    show win0_2.index t (1 : Fin 2) * 1 ≤ (i 1).val ∧ (i 1).val < win0_2.index t (1 : Fin 2) * 1 + 1
    rw [(idxFwd t).2]
    omega

/-- The forward output array ends as `fwdArr`. -/
theorem final_fwd : (dats m 0 c).arrAt 2 cfg0.N = fwdArr m c :=
  (dats m 0 c).arrAt_eq_of_cover 2 (fwdArr m c) (flushedFwd m c) coverFwd

/-- What a point that writes the backward block back writes: its block of `bwdArr`. -/
theorem flushedBwd (t : Fin cfg0.N) (hf : (cfg0.win 3).flush t = true) :
    (dats m 0 c).flushed 3 t = ((cfg0.win 3).blk t).view.read (Elt Ideal) (bwdArr m c) := by
  show (cfg0.win 3).cut (grid0.coords t) ((dats m 0 c).after 3 t) = _
  rw [after0_3]
  funext y
  obtain ⟨u, s, mm, rfl⟩ : ∃ (u : Fin 1) (s : Fin 8) (mm : Fin 16384), y = ix3 u s mm := ⟨y 0, y 1, y 2, eq_ix3 y⟩
  rw [View.read_apply]
  have h63 : t.val % 64 = 63 := (flush0_3 t).mp hf
  refine (out_bwd m c t h63 u s mm).trans ?_
  have hu : u.val < 1 := u.isLt
  have e0 : ((((cfg0.win 3).blk t).view.emb (ix3 u s mm)) 0).val = t.val / 64 := by
    show win0_3.index t 0 * 1 + 1 * u.val = _
    rw [(idxBwd t).1]; omega
  have e2 : mm = (((cfg0.win 3).blk t).view.emb (ix3 u s mm)) 2 := by
    apply Fin.ext
    show mm.val = win0_3.index t 2 * 16384 + 1 * mm.val
    rw [(idxBwd t).2.2]; omega
  show colPartial (cloudP m c) (cloudQ m c) t.val mm
    = colPartial (cloudP m c) (cloudQ m c) (((((cfg0.win 3).blk t).view.emb (ix3 u s mm)) 0).val * 64 + 63)
        ((((cfg0.win 3).blk t).view.emb (ix3 u s mm)) 2)
  exact congrArg₂ (colPartial (cloudP m c) (cloudQ m c)) (by rw [e0]; omega) e2

/-- An index of the backward array is in point `t`'s block iff each coordinate is in the block's range on its axis. -/
theorem mem_blkBwd (t : Fin cfg0.N) (i : S2x8x16384.Idx) :
    i ∈ ((cfg0.win 3).blk t).view.set ↔ ∀ a : Fin 3, win0_3.index t a * S1x8x16384.size a ≤ (i a).val
      ∧ (i a).val < win0_3.index t a * S1x8x16384.size a + S1x8x16384.size a := by
  show i ∈ ((View.whole main_v3_1).slice (win0_3.rect t)).set ↔ _
  rw [View.set_slice_whole, Rect.mem_set_unit]
  exact Iff.rfl

/-- Every index of the backward array lies in the block its core writes back at its last point. -/
theorem coverBwd (i : S2x8x16384.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 16384 := (i 2).isLt
  have hN : cfg0.N = 128 := N_0
  obtain ⟨t, ht⟩ : ∃ t : Fin cfg0.N, t.val = (i 0).val * 64 + 63 :=
    ⟨⟨(i 0).val * 64 + 63, by rw [hN]; omega⟩, rfl⟩
  refine ⟨t, (flush0_3 t).mpr (by omega), ?_⟩
  rw [mem_blkBwd]
  intro a
  match a with
  | ⟨0, _⟩ =>
    show win0_3.index t (0 : Fin 3) * 1 ≤ (i 0).val ∧ (i 0).val < win0_3.index t (0 : Fin 3) * 1 + 1
    rw [(idxBwd t).1]
    omega
  | ⟨1, _⟩ =>
    show win0_3.index t (1 : Fin 3) * 8 ≤ (i 1).val ∧ (i 1).val < win0_3.index t (1 : Fin 3) * 8 + 8
    rw [(idxBwd t).2.1]
    omega
  | ⟨2, _⟩ =>
    show win0_3.index t (2 : Fin 3) * 16384 ≤ (i 2).val ∧ (i 2).val < win0_3.index t (2 : Fin 3) * 16384 + 16384
    rw [(idxBwd t).2.2]
    omega

/-- The backward output array ends as `bwdArr`. -/
theorem final_bwd : (dats m 0 c).arrAt 3 cfg0.N = bwdArr m c :=
  (dats m 0 c).arrAt_eq_of_cover 3 (bwdArr m c) (flushedBwd m c) coverBwd

/-- The infimum over two indices is the minimum of the two. -/
theorem iInf_two (g : Fin 2 → EReal) : ⨅ k, g k = min (g 0) (g 1) :=
  le_antisymm (le_min (iInf_le _ 0) (iInf_le _ 1))
    (le_iInf fun k => by fin_cases k; exacts [min_le_left _ _, min_le_right _ _])

/-- The reduced index `mm` with core `k` put back on the leading axis is `(k, mm)`. -/
theorem lift_cores (h : S2x16384.Reduces [0] S16384) (mm : Fin 16384) (k : Fin (S2x16384.size 0)) :
    h.lift (ix1 mm) k = ix2 (⟨k.val, k.isLt⟩ : Fin 2) mm := by
  funext a; apply Fin.ext
  fin_cases a <;> rfl

/-- From `⊤` the host's minimum over the two cores, at column `mm`, is the minimum of the two cores' entries there. -/
theorem hostMin_cores (x : S2x16384.Idx → EReal) (mm : Fin 16384) :
    Host.reduce (FloatOps.minimumf (F := Ideal) (φ := .f32)) x (constant S_ .f32 0x7F800000#32)
        reducesTo_S2x16384_S16384_d0 h_S_ (ix1 mm)
      = min (x (ix2 0 mm)) (x (ix2 1 mm)) := by
  have h : S2x16384.Reduces [0] S16384 := by decide
  rw [Host.reduce_eq_fold_single (FloatOps.minimumf (F := Ideal) (φ := .f32)) x (constant S_ .f32 0x7F800000#32)
    reducesTo_S2x16384_S16384_d0 h h_S_ (ix1 mm)]
  rw [show constant (F := Ideal) S_ .f32 0x7F800000#32 (Shape.Idx.first h_S_) = (⊤ : EReal) from ofBits_inf_f32]
  refine (fold_min_top_eq_iInf (x ∘ h.lift (ix1 mm))).trans ?_
  refine (iInf_two _).trans ?_
  show min (x (h.lift (ix1 mm) (0 : Fin 2))) (x (h.lift (ix1 mm) (1 : Fin 2))) = _
  rw [lift_cores h mm (0 : Fin 2), lift_cores h mm (1 : Fin 2)]

/-- The first result: the nearest distance from each point of the first cloud into the second. -/
theorem tail_fwd :
    Pipeline.afterTail₀ cfgs (dats m) 0 (V0 m) [hostOps1] c main_v4 = fun j => nearestFwd (cloudP m c) (cloudQ m c) (j 0) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v3_0)
      = fwdArr m c :=
    (Pipeline.withArrays_arr spec0 launch0.win.arr_inj c _ _ 2).trans (final_fwd m c)
  funext j
  show shapeCast S16384 (Pipeline.withArrays (cfgs 0).spec c (V0 m c) (fun w => (dats m 0 c).arrAt w (cfgs 0).N)
    (Proc.devRef .tc main_v3_0)) shapeCasts_S16384x1_S16384 j = _
  rw [hA]
  rw [shapeCast_apply (fwdArr m c) shapeCasts_S16384x1_S16384 j (ix2 (j 0) 0) (by
    rw [Shape.rowMajor_val_two, Shape.rowMajor_val_one]
    show (j 0).val * 1 + 0 = (j 0).val
    omega)]
  rfl

set_option maxRecDepth 16384 in
/-- The second result: the nearest distance from each point of the second cloud into the first. -/
theorem tail_bwd :
    Pipeline.afterTail₀ cfgs (dats m) 0 (V0 m) [hostOps1] c main_v7 = fun j => nearestBwd (cloudP m c) (cloudQ m c) (j 0) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v3_1)
      = bwdArr m c :=
    (Pipeline.withArrays_arr spec0 launch0.win.arr_inj c _ _ 3).trans (final_bwd m c)
  funext j
  obtain ⟨mm, rfl⟩ : ∃ mm : Fin 16384, j = ix1 mm := ⟨j 0, eq_ix1 j⟩
  show Host.reduce (FloatOps.minimumf (F := Ideal) (φ := .f32))
      (shapeCast S2x16384 (extractStridedSlice S2x1x16384 (![0, 0, 0] : Fin 3 → Nat)
        (Pipeline.withArrays (cfgs 0).spec c (V0 m c) (fun w => (dats m 0 c).arrAt w (cfgs 0).N) (Proc.devRef .tc main_v3_1))
        slices_S2x8x16384_S2x1x16384_0_0_0) shapeCasts_S2x1x16384_S2x16384)
      (constant S_ .f32 0x7F800000#32) reducesTo_S2x16384_S16384_d0 h_S_ (ix1 mm) = nearestBwd (cloudP m c) (cloudQ m c) mm
  rw [hA, hostMin_cores]
  have entry : ∀ k : Fin 2, shapeCast S2x16384 (extractStridedSlice S2x1x16384 ![0, 0, 0] (bwdArr m c)
        slices_S2x8x16384_S2x1x16384_0_0_0) shapeCasts_S2x1x16384_S2x16384 (ix2 k mm)
      = colPartial (cloudP m c) (cloudQ m c) (k.val * 64 + 63) mm := fun k => by
    rw [shapeCast_apply _ shapeCasts_S2x1x16384_S2x16384 (ix2 k mm) (ix3 k (0 : Fin 1) mm) (by
      rw [Shape.rowMajor_val_three, Shape.rowMajor_val_two]
      show (k.val * 1 + 0) * 16384 + mm.val = k.val * 16384 + mm.val
      omega)]
    rw [extractStridedSlice_apply _ (bwdArr m c) slices_S2x8x16384_S2x1x16384_0_0_0 (ix3 k (0 : Fin 1) mm)
      (ix3 k (0 : Fin 8) mm) (fun a => by
        match a with
        | ⟨0, _⟩ => show k.val = 0 + k.val; omega
        | ⟨1, _⟩ => show 0 = 0 + 0; rfl
        | ⟨2, _⟩ => show mm.val = 0 + mm.val; omega)]
    rfl
  rw [entry 0, entry 1]
  have hc := colPartial_cores (cloudP m c) (cloudQ m c) mm
  rw [min_top_left] at hc
  exact hc

/-- The kernel program's run, read: both results in terms of the launched clouds, the clouds unchanged. -/
theorem run : θ_run defs (onTc (τ := τ) (main (F := Ideal))) ⟨m, fun _ => 0, ρ⟩ fun r => ∀ c : Dev nD,
      r.2.mem ((c : Thread nD τ).loc main_v4) = (fun j => nearestFwd (cloudP m c) (cloudQ m c) (j 0))
      ∧ r.2.mem ((c : Thread nD τ).loc main_v7) = (fun j => nearestBwd (cloudP m c) (cloudQ m c) (j 0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_fwd m c),
       ((h c).2 main_v7 (Pipeline.mem_restRefs_of main_v7 (by decide) (by decide))).trans (tail_bwd m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Chamfer.K

end
-- ==== Proof.RefValue.lean ====
/-
  The reference's two results as nearest-neighbour squared distances.

  The forward result at `n` is a fold of `min` from `+∞` over `m` of
  `(|x0[n]|² + |x1[m]|²) - 2·⟨x0[n], x1[m]⟩`, each norm a sum from zero over the three coordinates and the inner
  product a sum over the three coordinates: the expanded squared distance `sqDistExpanded x0 x1 n m`.  A fold of
  `min` from `⊤` over a finite range is the infimum, and on real coordinates the expanded form is the squared
  distance, so the forward result is `nearestFwd x0 x1 n`.

  The backward result at `m` is the same fold over `n` of `(|x1[m]|² + |x0[n]|²) - 2·⟨x1[m], x0[n]⟩`, which is
  `sqDistExpanded x1 x0 m n`; on real coordinates that is `sqDist x1 x0 m n = sqDist x0 x1 n m`, so the backward
  result is `nearestBwd x0 x1 m`.
-/
import proofs.«166123_j14620068675781_2_alg».proof.Proof.Gen.ReferenceIdeal.Read
import proofs.«166123_j14620068675781_2_alg».proof.Proof.Spec
import Idealize.ShloMosaic.PureOps.Reduce
import Idealize.ShloMosaic.PureOps.Ideal.Laws
import Idealize.ShloMosaic.Lib.ValueIdx
import Idealize.ShloMosaic.Lib.Pipeline.Value

noncomputable section

namespace Cert.Chamfer.Ref

open Cert.ReferenceIdeal Cert.ReferenceIdeal.Gen Cert.ReferenceIdeal.Read Idealize.ShloMosaic Idealize.ShloMosaic.ValueIdx

/-- The pattern of 2.0 reads as the extended real 2. -/
theorem ofBits_two_f32 : Ideal.ofBits .f32 0x40000000#32 = (2 : EReal) := by
  simp [Ideal.ofBits, Ideal.ieee]
  rw [← EReal.coe_mul]
  norm_num
  norm_cast

/-- A fold of `min` from `⊤` along the last axis of a `1 × 16384 × 16384` array is, at row `n`, the infimum over the columns. -/
theorem minReduce_apply (y : S1x16384x16384.Idx → EReal) (init : S_.Idx → EReal)
    (hinit : init (Shape.Idx.first h_S_) = ⊤) (n : Fin 16384) :
    Host.reduce (FloatOps.minimumf (F := Ideal) (φ := .f32)) y init reducesTo_S1x16384x16384_S1x16384_d2 h_S_ (ix2 (0 : Fin 1) n)
      = ⨅ m : Fin 16384, y (ix3 (0 : Fin 1) n m) := by
  rw [Host.reduce_eq_fold_single _ y init reducesTo_S1x16384x16384_S1x16384_d2 (by decide) h_S_, hinit]
  refine (Cert.Chamfer.fold_min_top_eq_iInf _).trans ?_
  refine iInf_congr fun m => ?_
  exact congrArg y (funext fun a => Fin.ext (by match a with | ⟨0, _⟩ => rfl | ⟨1, _⟩ => rfl | ⟨2, _⟩ => rfl))

/-! ## The forward half: rows are points of the first cloud, columns points of the second -/

/-- Entry `(n, m)` of the forward distance matrix is the expanded squared distance from point `n` of the first cloud to point `m` of the second. -/
theorem v12_apply (x0 x1 : (⟨S1x16384x3, .f32⟩ : BufTy).Contents (Elt Ideal)) (n m : Fin 16384) :
    val_main_v12 (F := Ideal) x0 x1 (ix3 (0 : Fin 1) n m) = Cert.Chamfer.sqDistExpanded x0 x1 n m := by
  have e1 : ∀ k : Fin 3, idx_main_v1 (idx_main_v5 (idx_main_v7 (ix3 (0 : Fin 1) n m))) k = ix3 (0 : Fin 1) n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 (0 : Fin 1) n m))) k = ix3 (0 : Fin 1) m k := fun k =>
    funext fun a => Fin.ext (by match a with | ⟨0, _⟩ => rfl | ⟨1, _⟩ => rfl | ⟨2, _⟩ => rfl)
  have el : ∀ k : Fin 3, lidx_main_v4 (ix3 (0 : Fin 1) n m) k = ix3 (0 : Fin 1) n k := fun k =>
    funext fun a => Fin.ext (by match a with | ⟨0, _⟩ => rfl | ⟨1, _⟩ => rfl | ⟨2, _⟩ => rfl)
  have er : ∀ k : Fin 3, ridx_main_v4 (ix3 (0 : Fin 1) n m) k = ix3 (0 : Fin 1) m k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply,
    val_main_v4_apply, val_main_cst_apply, val_main_cst_0_apply, val_main_cst_1_apply]
  simp only [val_main_v0_apply, val_main_v2_apply, e1, e3, el, er, Ideal.ofBits_def, Ideal.mulf_def, Ideal.addf_def,
    Ideal.subf_def, Ideal.ofBits_zero_f32, ofBits_two_f32]
  rfl

/-- Row `n` of the forward min-reduce is the infimum over `m` of entry `(n, m)`. -/
theorem v13_apply (x0 x1 : (⟨S1x16384x3, .f32⟩ : BufTy).Contents (Elt Ideal)) (n : Fin 16384) :
    val_main_v13 (F := Ideal) x0 x1 (ix2 (0 : Fin 1) n)
      = ⨅ m : Fin 16384, val_main_v12 (F := Ideal) x0 x1 (ix3 (0 : Fin 1) n m) := by
  unfold val_main_v13
  generalize val_main_v12 (F := Ideal) x0 x1 = y
  exact minReduce_apply y _ (by rw [val_main_cst_2_apply]; exact Cert.Chamfer.ofBits_inf_f32) n

/-- The forward result at `n` is the infimum over `m` of the squared distance from point `n` of the first cloud to point `m` of the second. -/
theorem fwd_eq (x0 x1 : (⟨S1x16384x3, .f32⟩ : BufTy).Contents (Elt Ideal)) (h0 : Cert.Chamfer.Cloud.IsReal x0) (h1 : Cert.Chamfer.Cloud.IsReal x1) :
    val_main_v14 (F := Ideal) x0 x1 = fun j => Cert.Chamfer.nearestFwd x0 x1 (j 0) := by
  funext j
  obtain ⟨n, rfl⟩ : ∃ n : Fin 16384, j = ix1 n := ⟨j 0, eq_ix1 j⟩
  have e : idx_main_v14 (ix1 n) = ix2 (0 : Fin 1) n := funext fun a => Fin.ext (by
    match a with
    | ⟨0, _⟩ => rfl
    | ⟨1, _⟩ => exact Nat.mod_eq_of_lt n.isLt)
  rw [val_main_v14_apply, e, v13_apply]
  show _ = Cert.Chamfer.nearestFwd x0 x1 n
  unfold Cert.Chamfer.nearestFwd
  refine iInf_congr fun m => ?_
  rw [v12_apply, Cert.Chamfer.sqDistExpanded_eq h0 h1]

/-! ## The backward half: rows are points of the second cloud, columns points of the first -/

/-- Entry `(m, n)` of the backward distance matrix is the expanded squared distance from point `m` of the second cloud to point `n` of the first. -/
theorem v27_apply (x0 x1 : (⟨S1x16384x3, .f32⟩ : BufTy).Contents (Elt Ideal)) (m n : Fin 16384) :
    val_main_v27 (F := Ideal) x0 x1 (ix3 (0 : Fin 1) m n) = Cert.Chamfer.sqDistExpanded x1 x0 m n := by
  have e1 : ∀ k : Fin 3, idx_main_v16 (idx_main_v20 (idx_main_v22 (ix3 (0 : Fin 1) m n))) k = ix3 (0 : Fin 1) m k := fun k =>
    funext fun a => Fin.ext (by match a with | ⟨0, _⟩ => rfl | ⟨1, _⟩ => rfl | ⟨2, _⟩ => rfl)
  have e3 : ∀ k : Fin 3, idx_main_v18 (idx_main_v21 (idx_main_v23 (ix3 (0 : Fin 1) m n))) k = ix3 (0 : Fin 1) n k := fun k =>
    funext fun a => Fin.ext (by match a with | ⟨0, _⟩ => rfl | ⟨1, _⟩ => rfl | ⟨2, _⟩ => rfl)
  have el : ∀ k : Fin 3, lidx_main_v19 (ix3 (0 : Fin 1) m n) k = ix3 (0 : Fin 1) m k := fun k =>
    funext fun a => Fin.ext (by match a with | ⟨0, _⟩ => rfl | ⟨1, _⟩ => rfl | ⟨2, _⟩ => rfl)
  have er : ∀ k : Fin 3, ridx_main_v19 (ix3 (0 : Fin 1) m n) k = ix3 (0 : Fin 1) n k := fun k =>
    funext fun a => Fin.ext (by match a with | ⟨0, _⟩ => rfl | ⟨1, _⟩ => rfl | ⟨2, _⟩ => rfl)
  rw [val_main_v27_apply, val_main_v24_apply, val_main_v22_apply, val_main_v20_apply, val_main_v16_apply,
    val_main_v23_apply, val_main_v21_apply, val_main_v18_apply, val_main_v26_apply, val_main_v25_apply,
    val_main_v19_apply, val_main_cst_3_apply, val_main_cst_4_apply, val_main_cst_5_apply]
  simp only [val_main_v15_apply, val_main_v17_apply, e1, e3, el, er, Ideal.ofBits_def, Ideal.mulf_def, Ideal.addf_def,
    Ideal.subf_def, Ideal.ofBits_zero_f32, ofBits_two_f32]
  rfl

/-- Row `m` of the backward min-reduce is the infimum over `n` of entry `(m, n)`. -/
theorem v28_apply (x0 x1 : (⟨S1x16384x3, .f32⟩ : BufTy).Contents (Elt Ideal)) (m : Fin 16384) :
    val_main_v28 (F := Ideal) x0 x1 (ix2 (0 : Fin 1) m)
      = ⨅ n : Fin 16384, val_main_v27 (F := Ideal) x0 x1 (ix3 (0 : Fin 1) m n) := by
  unfold val_main_v28
  generalize val_main_v27 (F := Ideal) x0 x1 = y
  exact minReduce_apply y _ (by rw [val_main_cst_6_apply]; exact Cert.Chamfer.ofBits_inf_f32) m

/-- The backward result at `m` is the infimum over `n` of the squared distance from point `n` of the first cloud to point `m` of the second. -/
theorem bwd_eq (x0 x1 : (⟨S1x16384x3, .f32⟩ : BufTy).Contents (Elt Ideal)) (h0 : Cert.Chamfer.Cloud.IsReal x0) (h1 : Cert.Chamfer.Cloud.IsReal x1) :
    val_main_v29 (F := Ideal) x0 x1 = fun j => Cert.Chamfer.nearestBwd x0 x1 (j 0) := by
  funext j
  obtain ⟨m, rfl⟩ : ∃ m : Fin 16384, j = ix1 m := ⟨j 0, eq_ix1 j⟩
  have e : idx_main_v29 (ix1 m) = ix2 (0 : Fin 1) m := funext fun a => Fin.ext (by
    match a with
    | ⟨0, _⟩ => rfl
    | ⟨1, _⟩ => exact Nat.mod_eq_of_lt m.isLt)
  rw [val_main_v29_apply, e, v28_apply]
  show _ = Cert.Chamfer.nearestBwd x0 x1 m
  unfold Cert.Chamfer.nearestBwd
  refine iInf_congr fun n => ?_
  rw [v27_apply, Cert.Chamfer.sqDistExpanded_eq h1 h0, Cert.Chamfer.sqDist_symm h0 h1 n m]

end Cert.Chamfer.Ref

end
-- ==== Proof.Finite.lean ====
/-
  Finiteness of the two clouds, read back from the printed precondition.

  The precondition computes, as one `i1` word, the conjunction of "every entry of the first array has
  `|x| < +∞`" and "every entry of the second array has `|x| < +∞`".  Each "every entry" is a reduction by
  `and` from the constant 1 over all three axes, so a result of 1 gives the comparison word 1 at every index.
  On extended reals `|x|` is `max x (-x)`, the bit pattern of `+∞` reads as `⊤`, and the ordered
  comparison `<` is the order's: the word is 1 exactly when `max x (-x) < ⊤`.  Both `⊥` and `⊤` have
  `max x (-x) = ⊤`, so an entry that passes is the image of a real number.
-/
import proofs.«166123_j14620068675781_2_alg».proof.Pre_finite_inputs
import proofs.«166123_j14620068675781_2_alg».proof.Proof.Spec
import Idealize.ShloMosaic.Lib.ReduceAll
import Idealize.ShloMosaic.PureOps.Ideal

noncomputable section

namespace Cert.Chamfer.Finite

open Idealize.ShloMosaic

/-- An extended real whose absolute value `max x (-x)` lies strictly below `⊤` is a real number:
    at `⊥` the maximum is `max ⊥ ⊤ = ⊤`, at `⊤` it is `max ⊤ ⊥ = ⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry: if the comparison word `|x| < +∞` is 1, then `x` is a real number.  The comparison is the
    order's `max x (-x) < ⊤` turned into a bit, so a word of 1 means the inequality holds. -/
theorem real_of_word (x : Ideal .f32)
    (h : FloatOps.cmpf (F := Ideal) .olt (FloatOps.hostAbsf x) (FloatOps.ofBits (F := Ideal) .f32 0x7F800000#32) = 1#1) :
    ∃ r : ℝ, x = (r : EReal) := by
  apply exists_real_of_abs_lt_top
  have h' : Ideal.cmp .olt (max x (-x)) (Ideal.ofBits .f32 0x7F800000#32) = 1#1 := h
  rw [Cert.Chamfer.ofBits_inf_f32] at h'
  unfold Ideal.cmp at h'
  by_contra hn
  simp [hn] at h'

/-- The rank-0 shape has exactly one index. -/
instance : Subsingleton Cert.Pre_finite_inputs.S_.Idx := ⟨fun a b => funext fun d => d.elim0⟩

/-- If the precondition's word is 1, every coordinate of both clouds is a real number: the outer `and` splits
    into the two reductions, each reduction by `and` over all axes gives its comparison word at every index,
    and each word gives a real entry. -/
theorem isReal_of_pre [Cert.Pre_finite_inputs.Facts] (x0 x1 : FVec Ideal Cert.Pre_finite_inputs.S1x16384x3 .f32)
    (h : Cert.Pre_finite_inputs.fn (F := Ideal) x0 x1 = fun _ => 1#1) :
    Cert.Chamfer.Cloud.IsReal x0 ∧ Cert.Chamfer.Cloud.IsReal x1 := by
  have h0 := congrFun h ValueIdx.ix0
  dsimp only [Cert.Pre_finite_inputs.fn] at h0
  obtain ⟨ha, hb⟩ := IntOp.andi_eq_one.1 h0
  refine ⟨fun i => ?_, fun i => ?_⟩
  · exact real_of_word (x0 i) (Host.reduce_andi_all _ _ _ _ _ ha i)
  · exact real_of_word (x1 i) (Host.reduce_andi_all _ _ _ _ _ hb i)

end Cert.Chamfer.Finite

end
-- ==== Proof.lean ====
/-
  Both programs compute the Chamfer nearest-neighbour distances between two clouds of 16384 points in 3 coordinates:
  for every point of the first cloud the squared distance to the nearest point of the second, and the other way round.

  The kernel builds the plane of squared distances tile by tile as `((0 + d₀²) + d₁²) + d₂²` and folds each tile's row and
  column minima into two running minima; its two results are the infima of the plane over its columns and over its rows
  (read off its run without any hypothesis on the inputs).  The reference expands the square, `|p|² + |q|² - 2⟨p, q⟩`, and
  takes the same two minima; on finite inputs the expansion is the squared distance, coordinate by coordinate
  (`(a - b)² = a² + b² - 2ab` over the reals; false at infinities, which is where the precondition is used), and the
  squared distance is symmetric in its two points.  So both end at the same two arrays.
  The three frames are the programs' runs with the results dropped; nothing was rewritten by the idealization.
-/
import proofs.«166123_j14620068675781_2_alg».proof.Defs
import proofs.«166123_j14620068675781_2_alg».proof.Proof.Gen.Kernel
import proofs.«166123_j14620068675781_2_alg».proof.Proof.Gen.Kernel.Skeleton
import proofs.«166123_j14620068675781_2_alg».proof.Proof.Gen.Kernel.Launch
import proofs.«166123_j14620068675781_2_alg».proof.Proof.Gen.Kernel.Points
import proofs.«166123_j14620068675781_2_alg».proof.Proof.Gen.Kernel.Frame
import proofs.«166123_j14620068675781_2_alg».proof.Proof.Gen.KernelIdeal
import proofs.«166123_j14620068675781_2_alg».proof.Proof.Gen.KernelIdeal.Skeleton
import proofs.«166123_j14620068675781_2_alg».proof.Proof.Gen.KernelIdeal.Launch
import proofs.«166123_j14620068675781_2_alg».proof.Proof.Gen.KernelIdeal.Points
import proofs.«166123_j14620068675781_2_alg».proof.Proof.Gen.KernelIdeal.Frame
import proofs.«166123_j14620068675781_2_alg».proof.Proof.Gen.ReferenceIdeal
import proofs.«166123_j14620068675781_2_alg».proof.Proof.Gen.Pre_finite_inputs
import proofs.«166123_j14620068675781_2_alg».proof.Proof.Gen.ReferenceIdeal.Run
import proofs.«166123_j14620068675781_2_alg».proof.Proof.Gen.ReferenceIdeal.Read
import proofs.«166123_j14620068675781_2_alg».proof.Proof.Spec
import proofs.«166123_j14620068675781_2_alg».proof.Proof.Final
import proofs.«166123_j14620068675781_2_alg».proof.Proof.RefValue
import proofs.«166123_j14620068675781_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From clouds that agree and are finite, both programs end at the nearest distances of the two clouds. -/
theorem algebraic : Cert.algebraic_KernelIdeal_ReferenceIdeal := by
  intro m ρ m' ρ' hpre hagree
  have hreal := fun c : Dev Cert.KernelIdeal.nD => Cert.Chamfer.Finite.isReal_of_pre _ _ (hpre c)
  refine ⟨fun c j => Cert.Chamfer.nearestFwd (Cert.Chamfer.K.cloudP m c) (Cert.Chamfer.K.cloudQ m c) (j 0),
    fun c j => Cert.Chamfer.nearestBwd (Cert.Chamfer.K.cloudP m c) (Cert.Chamfer.K.cloudQ m c) (j 0),
    Cert.Chamfer.K.run m ρ, ?_⟩
  refine (θ_run Cert.ReferenceIdeal.defs _ _).mono (fun _ h c => ?_) (Cert.ReferenceIdeal.Value.run (F := Ideal) m' ρ')
  obtain ⟨h14, h29, ha0, ha1⟩ := h c
  refine ⟨?_, ?_, ha0, ha1⟩
  · rw [h14, Cert.ReferenceIdeal.Read.val_main_v14_eq, (hagree c).1, (hagree c).2]
    exact Cert.Chamfer.Ref.fwd_eq _ _ (hreal c).1 (hreal c).2
  · rw [h29, Cert.ReferenceIdeal.Read.val_main_v29_eq, (hagree c).1, (hagree c).2]
    exact Cert.Chamfer.Ref.bwd_eq _ _ (hreal c).1 (hreal c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
